-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S10000x64 : Shape := ⟨2, ![10000, 64]⟩
abbrev S128x32 : Shape := ⟨2, ![128, 32]⟩
abbrev S32 : Shape := ⟨1, ![32]⟩
abbrev S96x7 : Shape := ⟨2, ![96, 7]⟩
abbrev S7 : Shape := ⟨1, ![7]⟩
abbrev S192x7 : Shape := ⟨2, ![192, 7]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S10000x64 : S_.BroadcastsInDim S10000x64 (![] : Fin 0 → Fin S10000x64.rank)
  reducesTo_S10000x64_S_d0_1 : S10000x64.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S96x7 : S_.BroadcastsInDim S96x7 (![] : Fin 0 → Fin S96x7.rank)
  reducesTo_S96x7_S_d0_1 : S96x7.ReducesTo [0, 1] S_
  bcast_S_S7 : S_.BroadcastsInDim S7 (![] : Fin 0 → Fin S7.rank)
  reducesTo_S7_S_d0 : S7.ReducesTo [0] S_
  bcast_S_S192x7 : S_.BroadcastsInDim S192x7 (![] : Fin 0 → Fin S192x7.rank)
  reducesTo_S192x7_S_d0_1 : S192x7.ReducesTo [0, 1] S_
  reducesTo_S_S_d : S_.ReducesTo [] S_

variable [Facts]

def fn_part3 {F : FTy → Type} [FloatOps F] (main_arg11 : FVec F S7 .f32) (main_arg12 : FVec F S_ .f32) (main_arg13 : FVec F S_ .f32) (main_v48 : IVec S_ 1) (main_v49 : FVec F S192x7 .f32) (main_v50 : FVec F S192x7 .f32) : IVec S_ 1 :=
  let main_v51 : IVec S192x7 1 := cmpf .olt main_v49 main_v50
  let main_c_19 : IVec S_ 1 := constantI S_ 1 1#1
  let main_v52 : IVec S_ 1 := (fun x v => Host.reduce IntOp.andi x v reducesTo_S192x7_S_d0_1 h_S_) main_v51 main_c_19
  let main_v53 : IVec S_ 1 := andi main_v48 main_v52
  let main_v54 : FVec F S7 .f32 := Host.absf main_arg11
  let main_cst_20 : FVec F S_ .f32 := constant S_ .f32 0x7F800000#32
  let main_v55 : FVec F S7 .f32 := broadcastInDim S7 ![] bcast_S_S7 main_cst_20
  let main_v56 : IVec S7 1 := cmpf .olt main_v54 main_v55
  let main_c_21 : IVec S_ 1 := constantI S_ 1 1#1
  let main_v57 : IVec S_ 1 := (fun x v => Host.reduce IntOp.andi x v reducesTo_S7_S_d0 h_S_) main_v56 main_c_21
  let main_v58 : IVec S_ 1 := andi main_v53 main_v57
  let main_v59 : FVec F S_ .f32 := Host.absf main_arg12
  let main_cst_22 : FVec F S_ .f32 := constant S_ .f32 0x7F800000#32
  let main_v60 : IVec S_ 1 := cmpf .olt main_v59 main_cst_22
  let main_c_23 : IVec S_ 1 := constantI S_ 1 1#1
  let main_v61 : IVec S_ 1 := (fun x v => Host.reduce IntOp.andi x v reducesTo_S_S_d h_S_) main_v60 main_c_23
  let main_v62 : IVec S_ 1 := andi main_v58 main_v61
  let main_v63 : FVec F S_ .f32 := Host.absf main_arg13
  let main_cst_24 : FVec F S_ .f32 := constant S_ .f32 0x7F800000#32
  let main_v64 : IVec S_ 1 := cmpf .olt main_v63 main_cst_24
  let main_c_25 : IVec S_ 1 := constantI S_ 1 1#1
  let main_v65 : IVec S_ 1 := (fun x v => Host.reduce IntOp.andi x v reducesTo_S_S_d h_S_) main_v64 main_c_25
  let main_v66 : IVec S_ 1 := andi main_v62 main_v65
  main_v66

def fn_part2 {F : FTy → Type} [FloatOps F] (main_arg7 : FVec F S96x7 .f32) (main_arg8 : FVec F S7 .f32) (main_arg9 : FVec F S192x7 .f32) (main_arg10 : FVec F S192x7 .f32) (main_arg11 : FVec F S7 .f32) (main_arg12 : FVec F S_ .f32) (main_arg13 : FVec F S_ .f32) (main_v33 : IVec S_ 1) : IVec S_ 1 :=
  let main_v34 : FVec F S96x7 .f32 := Host.absf main_arg7
  let main_cst_12 : FVec F S_ .f32 := constant S_ .f32 0x7F800000#32
  let main_v35 : FVec F S96x7 .f32 := broadcastInDim S96x7 ![] bcast_S_S96x7 main_cst_12
  let main_v36 : IVec S96x7 1 := cmpf .olt main_v34 main_v35
  let main_c_13 : IVec S_ 1 := constantI S_ 1 1#1
  let main_v37 : IVec S_ 1 := (fun x v => Host.reduce IntOp.andi x v reducesTo_S96x7_S_d0_1 h_S_) main_v36 main_c_13
  let main_v38 : IVec S_ 1 := andi main_v33 main_v37
  let main_v39 : FVec F S7 .f32 := Host.absf main_arg8
  let main_cst_14 : FVec F S_ .f32 := constant S_ .f32 0x7F800000#32
  let main_v40 : FVec F S7 .f32 := broadcastInDim S7 ![] bcast_S_S7 main_cst_14
  let main_v41 : IVec S7 1 := cmpf .olt main_v39 main_v40
  let main_c_15 : IVec S_ 1 := constantI S_ 1 1#1
  let main_v42 : IVec S_ 1 := (fun x v => Host.reduce IntOp.andi x v reducesTo_S7_S_d0 h_S_) main_v41 main_c_15
  let main_v43 : IVec S_ 1 := andi main_v38 main_v42
  let main_v44 : FVec F S192x7 .f32 := Host.absf main_arg9
  let main_cst_16 : FVec F S_ .f32 := constant S_ .f32 0x7F800000#32
  let main_v45 : FVec F S192x7 .f32 := broadcastInDim S192x7 ![] bcast_S_S192x7 main_cst_16
  let main_v46 : IVec S192x7 1 := cmpf .olt main_v44 main_v45
  let main_c_17 : IVec S_ 1 := constantI S_ 1 1#1
  let main_v47 : IVec S_ 1 := (fun x v => Host.reduce IntOp.andi x v reducesTo_S192x7_S_d0_1 h_S_) main_v46 main_c_17
  let main_v48 : IVec S_ 1 := andi main_v43 main_v47
  let main_v49 : FVec F S192x7 .f32 := Host.absf main_arg10
  let main_cst_18 : FVec F S_ .f32 := constant S_ .f32 0x7F800000#32
  let main_v50 : FVec F S192x7 .f32 := broadcastInDim S192x7 ![] bcast_S_S192x7 main_cst_18
  fn_part3 (F := F) main_arg11 main_arg12 main_arg13 main_v48 main_v49 main_v50

def fn_part1 {F : FTy → Type} [FloatOps F] (main_arg4 : FVec F S128x32 .f32) (main_arg5 : FVec F S32 .f32) (main_arg6 : FVec F S96x7 .f32) (main_arg7 : FVec F S96x7 .f32) (main_arg8 : FVec F S7 .f32) (main_arg9 : FVec F S192x7 .f32) (main_arg10 : FVec F S192x7 .f32) (main_arg11 : FVec F S7 .f32) (main_arg12 : FVec F S_ .f32) (main_arg13 : FVec F S_ .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S128x32 .f32 := Host.absf main_arg4
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S96x7 .f32 := Host.absf main_arg6
  let main_cst_10 : FVec F S_ .f32 := constant S_ .f32 0x7F800000#32
  let main_v30 : FVec F S96x7 .f32 := broadcastInDim S96x7 ![] bcast_S_S96x7 main_cst_10
  let main_v31 : IVec S96x7 1 := cmpf .olt main_v29 main_v30
  let main_c_11 : IVec S_ 1 := constantI S_ 1 1#1
  let main_v32 : IVec S_ 1 := (fun x v => Host.reduce IntOp.andi x v reducesTo_S96x7_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S10000x128 .f32) (main_arg1 : FVec F S10000x10000 .f32) (main_arg2 : FVec F S10000x64 .f32) (main_arg3 : FVec F S128x32 .f32) (main_arg4 : FVec F S128x32 .f32) (main_arg5 : FVec F S32 .f32) (main_arg6 : FVec F S96x7 .f32) (main_arg7 : FVec F S96x7 .f32) (main_arg8 : FVec F S7 .f32) (main_arg9 : FVec F S192x7 .f32) (main_arg10 : FVec F S192x7 .f32) (main_arg11 : FVec F S7 .f32) (main_arg12 : FVec F S_ .f32) (main_arg13 : FVec F S_ .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x64 .f32 := Host.absf main_arg2
  let main_cst_2 : FVec F S_ .f32 := constant S_ .f32 0x7F800000#32
  let main_v10 : FVec F S10000x64 .f32 := broadcastInDim S10000x64 ![] bcast_S_S10000x64 main_cst_2
  let main_v11 : IVec S10000x64 1 := cmpf .olt main_v9 main_v10
  let main_c_3 : IVec S_ 1 := constantI S_ 1 1#1
  let main_v12 : IVec S_ 1 := (fun x v => Host.reduce IntOp.andi x v reducesTo_S10000x64_S_d0_1 h_S_) main_v11 main_c_3
  let main_v13 : IVec S_ 1 := andi main_v8 main_v12
  let main_v14 : FVec F S128x32 .f32 := Host.absf main_arg3
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg4 main_arg5 main_arg6 main_arg7 main_arg8 main_arg9 main_arg10 main_arg11 main_arg12 main_arg13 main_v13 main_v16
-- ==== Kernel.lean ====
abbrev S10000x128 : Shape := ⟨2, ![10000, 128]⟩
abbrev S10000x10000 : Shape := ⟨2, ![10000, 10000]⟩
abbrev S10000x64 : Shape := ⟨2, ![10000, 64]⟩
abbrev S128x32 : Shape := ⟨2, ![128, 32]⟩
abbrev S32 : Shape := ⟨1, ![32]⟩
abbrev S96x7 : Shape := ⟨2, ![96, 7]⟩
abbrev S7 : Shape := ⟨1, ![7]⟩
abbrev S192x7 : Shape := ⟨2, ![192, 7]⟩
abbrev S_ : Shape := ⟨0, ![]⟩
abbrev S10000x192 : Shape := ⟨2, ![10000, 192]⟩
abbrev S10000x32 : Shape := ⟨2, ![10000, 32]⟩
abbrev S10000x7 : Shape := ⟨2, ![10000, 7]⟩
abbrev S10000x39 : Shape := ⟨2, ![10000, 39]⟩
abbrev S1x32 : Shape := ⟨2, ![1, 32]⟩
abbrev S1x7 : Shape := ⟨2, ![1, 7]⟩
abbrev S200x10000 : Shape := ⟨2, ![200, 10000]⟩
abbrev S200x39 : Shape := ⟨2, ![200, 39]⟩
abbrev S200x32 : Shape := ⟨2, ![200, 32]⟩
abbrev S200x7 : Shape := ⟨2, ![200, 7]⟩
abbrev S10000x96 : Shape := ⟨2, ![10000, 96]⟩
abbrev S1x1 : Shape := ⟨2, ![1, 1]⟩
abbrev S200 : Shape := ⟨1, ![200]⟩
abbrev S200x1 : Shape := ⟨2, ![200, 1]⟩

abbrev nBuf : Space → Nat
  | .hbm => 38
  | .vmem => 20
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x64, .f32⟩
  | .hbm, ⟨3, _⟩ => ⟨S128x32, .f32⟩
  | .hbm, ⟨4, _⟩ => ⟨S128x32, .f32⟩
  | .hbm, ⟨5, _⟩ => ⟨S32, .f32⟩
  | .hbm, ⟨6, _⟩ => ⟨S96x7, .f32⟩
  | .hbm, ⟨7, _⟩ => ⟨S96x7, .f32⟩
  | .hbm, ⟨8, _⟩ => ⟨S7, .f32⟩
  | .hbm, ⟨9, _⟩ => ⟨S192x7, .f32⟩
  | .hbm, ⟨10, _⟩ => ⟨S192x7, .f32⟩
  | .hbm, ⟨11, _⟩ => ⟨S7, .f32⟩
  | .hbm, ⟨12, _⟩ => ⟨S_, .f32⟩
  | .hbm, ⟨13, _⟩ => ⟨S_, .f32⟩
  | .hbm, ⟨14, _⟩ => ⟨S10000x192, .f32⟩
  | .hbm, ⟨15, _⟩ => ⟨S10000x32, .f32⟩
  | .hbm, ⟨16, _⟩ => ⟨S10000x7, .f32⟩
  | .hbm, ⟨17, _⟩ => ⟨S10000x39, .f32⟩
  | .hbm, ⟨18, _⟩ => ⟨S10000x32, .f32⟩
  | .hbm, ⟨19, _⟩ => ⟨S1x32, .f32⟩
  | .hbm, ⟨20, _⟩ => ⟨S10000x32, .f32⟩
  | .hbm, ⟨21, _⟩ => ⟨S10000x32, .f32⟩
  | .hbm, ⟨22, _⟩ => ⟨S10000x7, .f32⟩
  | .hbm, ⟨23, _⟩ => ⟨S1x7, .f32⟩
  | .hbm, ⟨24, _⟩ => ⟨S10000x7, .f32⟩
  | .hbm, ⟨25, _⟩ => ⟨S10000x7, .f32⟩
  | .hbm, ⟨26, _⟩ => ⟨S10000x39, .f32⟩
  | .hbm, ⟨27, _⟩ => ⟨S10000x32, .f32⟩
  | .hbm, ⟨28, _⟩ => ⟨S10000x7, .f32⟩
  | .hbm, ⟨29, _⟩ => ⟨S10000x96, .f32⟩
  | .hbm, ⟨30, _⟩ => ⟨S10000x7, .f32⟩
  | .hbm, ⟨31, _⟩ => ⟨S10000x7, .f32⟩
  | .hbm, ⟨32, _⟩ => ⟨S1x7, .f32⟩
  | .hbm, ⟨33, _⟩ => ⟨S10000x7, .f32⟩
  | .hbm, ⟨34, _⟩ => ⟨S10000x7, .f32⟩
  | .hbm, ⟨35, _⟩ => ⟨S1x1, .f32⟩
  | .hbm, ⟨36, _⟩ => ⟨S1x1, .f32⟩
  | .hbm, ⟨37, _⟩ => ⟨S10000x7, .f32⟩
  | .local _ .vmem, ⟨0, _⟩ => ⟨S200x10000, .f32⟩
  | .local _ .vmem, ⟨1, _⟩ => ⟨S200x10000, .f32⟩
  | .local _ .vmem, ⟨2, _⟩ => ⟨S10000x39, .f32⟩
  | .local _ .vmem, ⟨3, _⟩ => ⟨S200x39, .f32⟩
  | .local _ .vmem, ⟨4, _⟩ => ⟨S200x39, .f32⟩
  | .local _ .vmem, ⟨5, _⟩ => ⟨S200x32, .f32⟩
  | .local _ .vmem, ⟨6, _⟩ => ⟨S200x32, .f32⟩
  | .local _ .vmem, ⟨7, _⟩ => ⟨S200x7, .f32⟩
  | .local _ .vmem, ⟨8, _⟩ => ⟨S200x7, .f32⟩
  | .local _ .vmem, ⟨9, _⟩ => ⟨S200x10000, .f32⟩
  | .local _ .vmem, ⟨10, _⟩ => ⟨S200x10000, .f32⟩
  | .local _ .vmem, ⟨11, _⟩ => ⟨S10000x7, .f32⟩
  | .local _ .vmem, ⟨12, _⟩ => ⟨S200x7, .f32⟩
  | .local _ .vmem, ⟨13, _⟩ => ⟨S200x7, .f32⟩
  | .local _ .vmem, ⟨14, _⟩ => ⟨S200x7, .f32⟩
  | .local _ .vmem, ⟨15, _⟩ => ⟨S200x7, .f32⟩
  | .local _ .vmem, ⟨16, _⟩ => ⟨S1x1, .f32⟩
  | .local _ .vmem, ⟨17, _⟩ => ⟨S1x1, .f32⟩
  | .local _ .vmem, ⟨18, _⟩ => ⟨S200x7, .f32⟩
  | .local _ .vmem, ⟨19, _⟩ => ⟨S200x7, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x39 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x39 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S200x7 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x7 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S200x7 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S200x7 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S200x7 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  concatenates_S10000x128_S10000x64_S10000x192_d1 : Shape.Concatenates [S10000x128, S10000x64] S10000x192 1
  concatenates_S10000x32_S10000x7_S10000x39_d1 : Shape.Concatenates [S10000x32, S10000x7] S10000x39 1
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S7_S1x7_1 : S7.BroadcastsInDim S1x7 (![1] : Fin 1 → Fin S1x7.rank)
  bcast_S1x7_S10000x7_0_1 : S1x7.BroadcastsInDim S10000x7 (![0, 1] : Fin 2 → Fin S10000x7.rank)
  inb_S200x10000_S200x10000_0_0 : ∀ a, (![0, 0] : Fin 2 → Nat) a + S200x10000.size a ≤ S200x10000.size a
  h_S200x10000 : 0 < S200x10000.numel
  bitsLt_bf16_f32 : FTy.bits .bf16 < FTy.bits .f32
  inb_S10000x39_S10000x39_0_0 : ∀ a, (![0, 0] : Fin 2 → Nat) a + S10000x39.size a ≤ S10000x39.size a
  h_S10000x39 : 0 < S10000x39.numel
  shapeCasts_S10000x39_S10000x39 : S10000x39.ShapeCasts S10000x39
  inb_S200x39_S200x39_0_0 : ∀ a, (![0, 0] : Fin 2 → Nat) a + S200x39.size a ≤ S200x39.size a
  h_S200x39 : 0 < S200x39.numel
  shapeCasts_S200x39_S200x39 : S200x39.ShapeCasts S200x39
  slices_S200x39_o0_0_S200x32 : S200x39.Slices ![0, 0] S200x32
  inb_S200x32_S200x32_0_0 : ∀ a, (![0, 0] : Fin 2 → Nat) a + S200x32.size a ≤ S200x32.size a
  h_S200x32 : 0 < S200x32.numel
  slices_S200x39_o0_32_S200x7 : S200x39.Slices ![0, 32] S200x7
  inb_S200x7_S200x7_0_0 : ∀ a, (![0, 0] : Fin 2 → Nat) a + S200x7.size a ≤ S200x7.size a
  h_S200x7 : 0 < S200x7.numel
  concatenates_S10000x32_S10000x64_S10000x96_d1 : Shape.Concatenates [S10000x32, S10000x64] S10000x96 1
  shapeCasts_S_S1x1 : S_.ShapeCasts S1x1
  inb_S10000x7_S10000x7_0_0 : ∀ a, (![0, 0] : Fin 2 → Nat) a + S10000x7.size a ≤ S10000x7.size a
  h_S10000x7 : 0 < S10000x7.numel
  shapeCasts_S10000x7_S10000x7 : S10000x7.ShapeCasts S10000x7
  shapeCasts_S200x7_S200x7 : S200x7.ShapeCasts S200x7
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S200x7 : S1x1.Broadcasts S200x7
  reduces_S200x7_S200 : S200x7.Reduces [1] S200
  shapeCasts_S200_S200x1 : S200.ShapeCasts S200x1
  broadcasts_S200x1_S200x7 : S200x1.Broadcasts S200x7
  dot_S10000x128_S128x32_S10000x32_1_0_0_1_n_n_wf : DotDims.WF S10000x128 S128x32 S10000x32 [1] [0] [0] [1] [] []
  dot_S10000x192_S192x7_S10000x7_1_0_0_1_n_n_wf : DotDims.WF S10000x192 S192x7 S10000x7 [1] [0] [0] [1] [] []
  dot_S200x10000_S10000x39_S200x39_1_0_0_1_n_n_wf : DotDims.WF S200x10000 S10000x39 S200x39 [1] [0] [0] [1] [] []
  dot_S10000x96_S96x7_S10000x7_1_0_0_1_n_n_wf : DotDims.WF S10000x96 S96x7 S10000x7 [1] [0] [0] [1] [] []
  dot_S200x10000_S10000x7_S200x7_1_0_0_1_n_n_wf : DotDims.WF S200x10000 S10000x7 S200x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x39.size a ≤ S10000x39.size a
  hwx0_1 : ∀ i : grid0.Coords, EltTy.bits .f32 = 32 ∨ (Rect.block (s := S10000x39) S10000x39.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x39.size a ≤ S10000x39.size a
  hwx0_2 : ∀ i : grid0.Coords, EltTy.bits .f32 = 32 ∨ (Rect.block (s := S10000x39) S200x39.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x32.size a ≤ S10000x32.size a
  hwx0_3 : ∀ i : grid0.Coords, EltTy.bits .f32 = 32 ∨ (Rect.block (s := S10000x32) S200x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x7.size a ≤ S10000x7.size a
  hwx0_4 : ∀ i : grid0.Coords, EltTy.bits .f32 = 32 ∨ (Rect.block (s := S10000x7) S200x7.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x7.size a ≤ S10000x7.size a
  hwx1_1 : ∀ i : grid1.Coords, EltTy.bits .f32 = 32 ∨ (Rect.block (s := S10000x7) S10000x7.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x7.size a ≤ S10000x7.size a
  hwx1_2 : ∀ i : grid1.Coords, EltTy.bits .f32 = 32 ∨ (Rect.block (s := S10000x7) S200x7.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S200x7.size a ≤ S10000x7.size a
  hwx1_3 : ∀ i : grid1.Coords, EltTy.bits .f32 = 32 ∨ (Rect.block (s := S10000x7) S200x7.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S200x7.size a ≤ S10000x7.size a
  hwx1_6 : ∀ i : grid1.Coords, EltTy.bits .f32 = 32 ∨ (Rect.block (s := S10000x7) S200x7.size (cc1_transform_6 i) (hinb1_6 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x192_S192x7_S10000x7_1_0_0_1_n_n : DotDims S10000x192 S192x7 S10000x7 where
  lhsContracting := [1]
  rhsContracting := [0]
  lhsNonContracting := [0]
  rhsNonContracting := [1]
  lhsBatch := []
  rhsBatch := []
  wf := dot_S10000x192_S192x7_S10000x7_1_0_0_1_n_n_wf
def dot_S200x10000_S10000x39_S200x39_1_0_0_1_n_n : DotDims S200x10000 S10000x39 S200x39 where
  lhsContracting := [1]
  rhsContracting := [0]
  lhsNonContracting := [0]
  rhsNonContracting := [1]
  lhsBatch := []
  rhsBatch := []
  wf := dot_S200x10000_S10000x39_S200x39_1_0_0_1_n_n_wf
def dot_S10000x96_S96x7_S10000x7_1_0_0_1_n_n : DotDims S10000x96 S96x7 S10000x7 where
  lhsContracting := [1]
  rhsContracting := [0]
  lhsNonContracting := [0]
  rhsNonContracting := [1]
  lhsBatch := []
  rhsBatch := []
  wf := dot_S10000x96_S96x7_S10000x7_1_0_0_1_n_n_wf
def dot_S200x10000_S10000x7_S200x7_1_0_0_1_n_n : DotDims S200x10000 S10000x7 S200x7 where
  lhsContracting := [1]
  rhsContracting := [0]
  lhsNonContracting := [0]
  rhsNonContracting := [1]
  lhsBatch := []
  rhsBatch := []
  wf := dot_S200x10000_S10000x7_S200x7_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S10000x39.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S200x39.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13_0) S200x32.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13_1) S200x7.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x7.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S200x7.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13_1) S200x7.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S200x7.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S10000x64 : Shape := ⟨2, ![10000, 64]⟩
abbrev S128x32 : Shape := ⟨2, ![128, 32]⟩
abbrev S32 : Shape := ⟨1, ![32]⟩
abbrev S96x7 : Shape := ⟨2, ![96, 7]⟩
abbrev S7 : Shape := ⟨1, ![7]⟩
abbrev S192x7 : Shape := ⟨2, ![192, 7]⟩
abbrev S_ : Shape := ⟨0, ![]⟩
abbrev S10000x32 : Shape := ⟨2, ![10000, 32]⟩
abbrev S1x32 : Shape := ⟨2, ![1, 32]⟩
abbrev S10000x96 : Shape := ⟨2, ![10000, 96]⟩
abbrev S10000x7 : Shape := ⟨2, ![10000, 7]⟩
abbrev S1x7 : Shape := ⟨2, ![1, 7]⟩
abbrev S10000x192 : Shape := ⟨2, ![10000, 192]⟩
abbrev S10000 : Shape := ⟨1, ![10000]⟩
abbrev S10000x1 : Shape := ⟨2, ![10000, 1]⟩

abbrev nBuf : Space → Nat
  | .hbm => 62
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x64, .f32⟩
  | .hbm, ⟨3, _⟩ => ⟨S128x32, .f32⟩
  | .hbm, ⟨4, _⟩ => ⟨S128x32, .f32⟩
  | .hbm, ⟨5, _⟩ => ⟨S32, .f32⟩
  | .hbm, ⟨6, _⟩ => ⟨S96x7, .f32⟩
  | .hbm, ⟨7, _⟩ => ⟨S96x7, .f32⟩
  | .hbm, ⟨8, _⟩ => ⟨S7, .f32⟩
  | .hbm, ⟨9, _⟩ => ⟨S192x7, .f32⟩
  | .hbm, ⟨10, _⟩ => ⟨S192x7, .f32⟩
  | .hbm, ⟨11, _⟩ => ⟨S7, .f32⟩
  | .hbm, ⟨12, _⟩ => ⟨S_, .f32⟩
  | .hbm, ⟨13, _⟩ => ⟨S_, .f32⟩
  | .hbm, ⟨14, _⟩ => ⟨S10000x32, .f32⟩
  | .hbm, ⟨15, _⟩ => ⟨S10000x32, .f32⟩
  | .hbm, ⟨16, _⟩ => ⟨S10000x32, .f32⟩
  | .hbm, ⟨17, _⟩ => ⟨S10000x32, .f32⟩
  | .hbm, ⟨18, _⟩ => ⟨S1x32, .f32⟩
  | .hbm, ⟨19, _⟩ => ⟨S10000x32, .f32⟩
  | .hbm, ⟨20, _⟩ => ⟨S10000x32, .f32⟩
  | .hbm, ⟨21, _⟩ => ⟨S_, .f32⟩
  | .hbm, ⟨22, _⟩ => ⟨S10000x32, .f32⟩
  | .hbm, ⟨23, _⟩ => ⟨S10000x32, .f32⟩
  | .hbm, ⟨24, _⟩ => ⟨S10000x96, .f32⟩
  | .hbm, ⟨25, _⟩ => ⟨S10000x7, .f32⟩
  | .hbm, ⟨26, _⟩ => ⟨S10000x7, .f32⟩
  | .hbm, ⟨27, _⟩ => ⟨S10000x7, .f32⟩
  | .hbm, ⟨28, _⟩ => ⟨S10000x7, .f32⟩
  | .hbm, ⟨29, _⟩ => ⟨S1x7, .f32⟩
  | .hbm, ⟨30, _⟩ => ⟨S10000x7, .f32⟩
  | .hbm, ⟨31, _⟩ => ⟨S10000x7, .f32⟩
  | .hbm, ⟨32, _⟩ => ⟨S10000x192, .f32⟩
  | .hbm, ⟨33, _⟩ => ⟨S10000x7, .f32⟩
  | .hbm, ⟨34, _⟩ => ⟨S10000x7, .f32⟩
  | .hbm, ⟨35, _⟩ => ⟨S10000x7, .f32⟩
  | .hbm, ⟨36, _⟩ => ⟨S10000x7, .f32⟩
  | .hbm, ⟨37, _⟩ => ⟨S1x7, .f32⟩
  | .hbm, ⟨38, _⟩ => ⟨S10000x7, .f32⟩
  | .hbm, ⟨39, _⟩ => ⟨S10000x7, .f32⟩
  | .hbm, ⟨40, _⟩ => ⟨S10000x7, .f32⟩
  | .hbm, ⟨41, _⟩ => ⟨S10000x7, .f32⟩
  | .hbm, ⟨42, _⟩ => ⟨S10000x7, .f32⟩
  | .hbm, ⟨43, _⟩ => ⟨S10000x7, .f32⟩
  | .hbm, ⟨44, _⟩ => ⟨S10000x7, .f32⟩
  | .hbm, ⟨45, _⟩ => ⟨S_, .f32⟩
  | .hbm, ⟨46, _⟩ => ⟨S10000x7, .f32⟩
  | .hbm, ⟨47, _⟩ => ⟨S10000x7, .f32⟩
  | .hbm, ⟨48, _⟩ => ⟨S_, .f32⟩
  | .hbm, ⟨49, _⟩ => ⟨S10000, .f32⟩
  | .hbm, ⟨50, _⟩ => ⟨S_, .f32⟩
  | .hbm, ⟨51, _⟩ => ⟨S10000, .f32⟩
  | .hbm, ⟨52, _⟩ => ⟨S10000, .f32⟩
  | .hbm, ⟨53, _⟩ => ⟨S10000x1, .f32⟩
  | .hbm, ⟨54, _⟩ => ⟨S10000x7, .f32⟩
  | .hbm, ⟨55, _⟩ => ⟨S10000x7, .f32⟩
  | .hbm, ⟨56, _⟩ => ⟨S10000x7, .f32⟩
  | .hbm, ⟨57, _⟩ => ⟨S_, .f32⟩
  | .hbm, ⟨58, _⟩ => ⟨S10000, .f32⟩
  | .hbm, ⟨59, _⟩ => ⟨S10000x1, .f32⟩
  | .hbm, ⟨60, _⟩ => ⟨S10000x7, .f32⟩
  | .hbm, ⟨61, _⟩ => ⟨S10000x7, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_call0_cst : Ref sig .tc := ⟨.hbm, 21, rfl⟩
abbrev main_call0_v0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst : Ref sig .tc := ⟨.hbm, 45, rfl⟩
abbrev main_v29 : Ref sig .tc := ⟨.hbm, 46, rfl⟩
abbrev main_v30 : Ref sig .tc := ⟨.hbm, 47, rfl⟩
abbrev main_cst_0 : Ref sig .tc := ⟨.hbm, 48, rfl⟩
abbrev main_v31 : Ref sig .tc := ⟨.hbm, 49, rfl⟩
abbrev main_cst_1 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_2 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S10000x32 : S_.BroadcastsInDim S10000x32 (![] : Fin 0 → Fin S10000x32.rank)
  concatenates_S10000x32_S10000x64_S10000x96_d1 : Shape.Concatenates [S10000x32, S10000x64] S10000x96 1
  bcast_S7_S1x7_1 : S7.BroadcastsInDim S1x7 (![1] : Fin 1 → Fin S1x7.rank)
  bcast_S1x7_S10000x7_0_1 : S1x7.BroadcastsInDim S10000x7 (![0, 1] : Fin 2 → Fin S10000x7.rank)
  concatenates_S10000x128_S10000x64_S10000x192_d1 : Shape.Concatenates [S10000x128, S10000x64] S10000x192 1
  bcast_S_S10000x7 : S_.BroadcastsInDim S10000x7 (![] : Fin 0 → Fin S10000x7.rank)
  reducesTo_S10000x7_S10000_d1 : S10000x7.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x7_0_1 : S10000x1.BroadcastsInDim S10000x7 (![0, 1] : Fin 2 → Fin S10000x7.rank)
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []
  dot_S10000x96_S96x7_S10000x7_1_0_0_1_n_n_wf : DotDims.WF S10000x96 S96x7 S10000x7 [1] [0] [0] [1] [] []
  dot_S10000x10000_S10000x7_S10000x7_1_0_0_1_n_n_wf : DotDims.WF S10000x10000 S10000x7 S10000x7 [1] [0] [0] [1] [] []
  dot_S10000x192_S192x7_S10000x7_1_0_0_1_n_n_wf : DotDims.WF S10000x192 S192x7 S10000x7 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x96_S96x7_S10000x7_1_0_0_1_n_n : DotDims S10000x96 S96x7 S10000x7 where
  lhsContracting := [1]
  rhsContracting := [0]
  lhsNonContracting := [0]
  rhsNonContracting := [1]
  lhsBatch := []
  rhsBatch := []
  wf := dot_S10000x96_S96x7_S10000x7_1_0_0_1_n_n_wf
def dot_S10000x10000_S10000x7_S10000x7_1_0_0_1_n_n : DotDims S10000x10000 S10000x7 S10000x7 where
  lhsContracting := [1]
  rhsContracting := [0]
  lhsNonContracting := [0]
  rhsNonContracting := [1]
  lhsBatch := []
  rhsBatch := []
  wf := dot_S10000x10000_S10000x7_S10000x7_1_0_0_1_n_n_wf
def dot_S10000x192_S192x7_S10000x7_1_0_0_1_n_n : DotDims S10000x192 S192x7 S10000x7 where
  lhsContracting := [1]
  rhsContracting := [0]
  lhsNonContracting := [0]
  rhsNonContracting := [1]
  lhsBatch := []
  rhsBatch := []
  wf := dot_S10000x192_S192x7_S10000x7_1_0_0_1_n_n_wf

class Facts : Prop extends Facts₀ where

variable [Facts]
-- ==== Proof.Spec.lean ====
/-
  What the two passes compute, entry by entry, over the extended reals.

  One step of the graph convolution sends a feature matrix X and a skip term Y to A·X + Y: at entry (p, q) the
  row p of A against the column q of X, plus Y(p, q).  The first pass does this once for 39 columns and splits the
  result: the first 32 columns, clipped below at zero, are the secondary features; the last 7 are the main branch.
  The second pass does one more step on 7 columns, mixes it with the main branch, halves, and normalises every row
  with a softmax: subtract the row's maximum, exponentiate, divide by the row's sum.

  Every one of these is computed row by row: row p of the result reads row p of A, of the skip term and of the main
  branch, and all of X.  So the same formulas describe a block of rows and the whole array, and a block of the
  whole array's result is the result on the blocks (the `_rows` lemmas).
-/
import Idealize.ShloMosaic.Lib.ValueIdx
import Idealize.ShloMosaic.PureOps.Ideal

noncomputable section

open scoped BigOperators

namespace ArmaSpec

open Idealize.ShloMosaic Idealize.ShloMosaic.ValueIdx

/-- An r × c matrix of extended reals. -/
abbrev Mat (r c : Nat) := FVec Ideal ⟨2, ![r, c]⟩ .f32

/-- Column q of the first 32 among 39. -/
abbrev colL (q : Fin 32) : Fin 39 := ⟨q.val, by have := q.isLt; omega⟩
/-- Column q of the last 7 among 39. -/
abbrev colR (q : Fin 7) : Fin 39 := ⟨32 + q.val, by have := q.isLt; omega⟩

/-- One convolution entry: row p of A against column q of X, plus the skip term there. -/
def conv {r n c : Nat} (A : Mat r n) (X : Mat n c) (Y : Mat r c) (p : Fin r) (q : Fin c) : EReal :=
  (∑ k : Fin n, A (ix2 p k) * X (ix2 k q)) + Y (ix2 p q)

/-- The word of the float zero, read exactly. -/
abbrev zeroW : EReal := Ideal.ofBits .f32 0x00000000#32
/-- The word of the float minus infinity, read exactly. -/
abbrev negInfW : EReal := Ideal.ofBits .f32 0xFF800000#32
/-- The word of the float one half, read exactly. -/
abbrev halfW : EReal := Ideal.ofBits .f32 0x3F000000#32

/-- The secondary features: the first 32 columns of the 39-column step, clipped below at zero. -/
def secOf {r n : Nat} (A : Mat r n) (X : Mat n 39) (Y : Mat r 39) : Mat r 32 :=
  fun i => max (conv A X Y (i 0) (colL (i 1))) zeroW

/-- The main branch: the last 7 columns of the 39-column step. -/
def mainOf {r n : Nat} (A : Mat r n) (X : Mat n 39) (Y : Mat r 39) : Mat r 7 :=
  fun i => conv A X Y (i 0) (colR (i 1))

/-- A row's maximum as a softmax takes it: from minus infinity, and once more against minus infinity. -/
def rowMax {r : Nat} (Z : Mat r 7) (p : Fin r) : EReal :=
  max negInfW ((Finset.univ : Finset (Fin 7)).fold max negInfW (fun k => Z (ix2 p k)))

/-- An entry shifted by its row's maximum and exponentiated. -/
def expShift {r : Nat} (Z : Mat r 7) (p : Fin r) (q : Fin 7) : EReal := Ideal.exp (Z (ix2 p q) - rowMax Z p)

/-- The softmax of every row. -/
def softOf {r : Nat} (Z : Mat r 7) : Mat r 7 :=
  fun i => Ideal.div (expShift Z (i 0) (i 1)) (∑ k : Fin 7, expShift Z (i 0) k)

/-- The halved mix of the main branch (weight v₂) and one more convolution step (weight v₁). -/
def mixOf {r n : Nat} (A : Mat r n) (X : Mat n 7) (Y Mn : Mat r 7) (v1 v2 : EReal) : Mat r 7 :=
  fun i => halfW * (v2 * Mn i + v1 * conv A X Y (i 0) (i 1))

/-- The second pass: the softmax of the mix. -/
def outOf {r n : Nat} (A : Mat r n) (X : Mat n 7) (Y Mn : Mat r 7) (v1 v2 : EReal) : Mat r 7 :=
  softOf (mixOf A X Y Mn v1 v2)

/-! ## Row by row -/

section Rows
variable {r r' n c : Nat}

/-- A convolution entry reads one row of A and of the skip term. -/
theorem conv_rows (A : Mat r n) (A' : Mat r' n) (X : Mat n c) (Y : Mat r c) (Y' : Mat r' c) (p : Fin r) (p' : Fin r')
    (hA : ∀ k, A' (ix2 p' k) = A (ix2 p k)) (hY : ∀ q, Y' (ix2 p' q) = Y (ix2 p q)) (q : Fin c) :
    conv A' X Y' p' q = conv A X Y p q := by
  unfold conv
  rw [hY q]
  exact congrArg (· + Y (ix2 p q)) (Finset.sum_congr rfl fun k _ => by rw [hA k])

theorem secOf_rows (A : Mat r n) (A' : Mat r' n) (X : Mat n 39) (Y : Mat r 39) (Y' : Mat r' 39) (p : Fin r) (p' : Fin r')
    (hA : ∀ k, A' (ix2 p' k) = A (ix2 p k)) (hY : ∀ q, Y' (ix2 p' q) = Y (ix2 p q)) (q : Fin 32) :
    secOf A' X Y' (ix2 p' q) = secOf A X Y (ix2 p q) := by
  show max (conv A' X Y' p' (colL q)) zeroW = max (conv A X Y p (colL q)) zeroW
  rw [conv_rows A A' X Y Y' p p' hA hY]

theorem mainOf_rows (A : Mat r n) (A' : Mat r' n) (X : Mat n 39) (Y : Mat r 39) (Y' : Mat r' 39) (p : Fin r) (p' : Fin r')
    (hA : ∀ k, A' (ix2 p' k) = A (ix2 p k)) (hY : ∀ q, Y' (ix2 p' q) = Y (ix2 p q)) (q : Fin 7) :
    mainOf A' X Y' (ix2 p' q) = mainOf A X Y (ix2 p q) :=
  conv_rows A A' X Y Y' p p' hA hY (colR q)

/-- The softmax of a row reads that row only. -/
theorem softOf_rows (Z : Mat r 7) (Z' : Mat r' 7) (p : Fin r) (p' : Fin r')
    (hZ : ∀ q, Z' (ix2 p' q) = Z (ix2 p q)) (q : Fin 7) :
    softOf Z' (ix2 p' q) = softOf Z (ix2 p q) := by
  have hm : rowMax Z' p' = rowMax Z p := by
    unfold rowMax
    exact congrArg (max negInfW) (Finset.fold_congr fun k _ => hZ k)
  have he : ∀ k, expShift Z' p' k = expShift Z p k := fun k => by unfold expShift; rw [hZ k, hm]
  show Ideal.div (expShift Z' p' q) (∑ k : Fin 7, expShift Z' p' k) = Ideal.div (expShift Z p q) (∑ k : Fin 7, expShift Z p k)
  rw [he q]
  exact congrArg (Ideal.div (expShift Z p q)) (Finset.sum_congr rfl fun k _ => he k)

theorem outOf_rows (A : Mat r n) (A' : Mat r' n) (X : Mat n 7) (Y Mn : Mat r 7) (Y' Mn' : Mat r' 7) (v1 v2 : EReal)
    (p : Fin r) (p' : Fin r') (hA : ∀ k, A' (ix2 p' k) = A (ix2 p k)) (hY : ∀ q, Y' (ix2 p' q) = Y (ix2 p q))
    (hM : ∀ q, Mn' (ix2 p' q) = Mn (ix2 p q)) (q : Fin 7) :
    outOf A' X Y' Mn' v1 v2 (ix2 p' q) = outOf A X Y Mn v1 v2 (ix2 p q) := by
  unfold outOf
  refine softOf_rows _ _ p p' (fun k => ?_) q
  show halfW * (v2 * Mn' (ix2 p' k) + v1 * conv A' X Y' p' k) = halfW * (v2 * Mn (ix2 p k) + v1 * conv A X Y p k)
  rw [hM k, conv_rows A A' X Y Y' p p' hA hY]

end Rows

end ArmaSpec

end
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.Pay0.lean ====
/-
  The first pass's two stored values, entry by entry.

  On a block of 200 rows the body multiplies the block of A (200 × 10000) by the whole 39-column feature matrix,
  adds the block of the skip term, and stores the first 32 columns clipped at zero and the last 7 columns as they
  are.  At the exact instance the change of float format before the product is the identity and the product into a
  zero accumulator is the plain sum over the contracted axis.
-/
import proofs.«147145_j35545149341868_1_alg».proof.Proof.Gen.KernelIdeal.Skeleton
import proofs.«147145_j35545149341868_1_alg».proof.Proof.Spec
import proofs.«147145_j35545149341868_1_alg».proof.Proof.LibPlainDot
import Idealize.ShloMosaic.Lib.Pipeline.Value

noncomputable section

open scoped BigOperators

namespace Cert.KernelIdeal.Pay0

open Idealize.ShloMosaic Idealize.ShloMosaic.ValueIdx Cert.KernelIdeal Cert.KernelIdeal.Gen ArmaSpec

/-- The 39-column product's dimension numbers are those of a plain matrix product. -/
theorem plain39 : PlainDot.IsPlain (M := 200) (K := 10000) (N := 39) dot_S200x10000_S10000x39_S200x39_1_0_0_1_n_n :=
  ⟨rfl, rfl, rfl, rfl, rfl, rfl⟩

/-- The sum before the split: row r of the A block against column q of the features, plus the skip block. -/
theorem acc_apply (x0 : Vec Ideal S200x10000 .f32) (x1 : Vec Ideal S10000x39 .f32) (x2 : Vec Ideal S200x39 .f32)
    (r : Fin 200) (q : Fin 39) :
    k0_pay1 (F := Ideal) x0 x1 x2 (ix2 r q) = (∑ k : Fin 10000, x0 (ix2 r k) * x1 (ix2 k q)) + x2 (ix2 r q) := by
  unfold k0_pay1
  rw [addf_apply, shapeCast_self, shapeCast_self]
  exact congrArg (· + x2 (ix2 r q)) (PlainDot.matmul_zero_apply plain39 none _ _ r q)

/-- The stored secondary block: the first 32 columns, clipped at zero. -/
theorem sec_apply (x0 : Vec Ideal S200x10000 .f32) (x1 : Vec Ideal S10000x39 .f32) (x2 : Vec Ideal S200x39 .f32)
    (r : Fin 200) (q : Fin 32) :
    k0_pay2 (F := Ideal) x0 x1 x2 (ix2 r q)
      = max ((∑ k : Fin 10000, x0 (ix2 r k) * x1 (ix2 k (colL q))) + x2 (ix2 r (colL q))) zeroW := by
  unfold k0_pay2
  rw [maximumf_apply, broadcast_apply]
  refine congrArg (max · zeroW) ?_
  refine (extractStridedSlice_apply _ _ slices_S200x39_o0_0_S200x32 (ix2 r q) (ix2 r (colL q)) fun a => ?_).trans
    (acc_apply x0 x1 x2 r (colL q))
  match a with
  | ⟨0, _⟩ => show r.val = 0 + r.val; omega
  | ⟨1, _⟩ => show q.val = 0 + q.val; omega

/-- The stored main block: the last 7 columns. -/
theorem main_apply (x0 : Vec Ideal S200x10000 .f32) (x1 : Vec Ideal S10000x39 .f32) (x2 : Vec Ideal S200x39 .f32)
    (r : Fin 200) (q : Fin 7) :
    k0_pay3 (F := Ideal) x0 x1 x2 (ix2 r q)
      = (∑ k : Fin 10000, x0 (ix2 r k) * x1 (ix2 k (colR q))) + x2 (ix2 r (colR q)) := by
  unfold k0_pay3
  refine (extractStridedSlice_apply _ _ slices_S200x39_o0_32_S200x7 (ix2 r q) (ix2 r (colR q)) fun a => ?_).trans
    (acc_apply x0 x1 x2 r (colR q))
  match a with
  | ⟨0, _⟩ => show r.val = 0 + r.val; omega
  | ⟨1, _⟩ => show 32 + q.val = 32 + q.val; rfl

/-- The stored secondary block is the specification's secondary features of the blocks. -/
theorem sec_eq (x0 : Vec Ideal S200x10000 .f32) (x1 : Vec Ideal S10000x39 .f32) (x2 : Vec Ideal S200x39 .f32) :
    k0_pay2 (F := Ideal) x0 x1 x2 = secOf x0 x1 x2 := by
  funext j
  obtain ⟨r, q, rfl⟩ : ∃ (r : Fin 200) (q : Fin 32), j = ix2 r q := ⟨j 0, j 1, eq_ix2 j⟩
  exact sec_apply x0 x1 x2 r q

/-- The stored main block is the specification's main branch of the blocks. -/
theorem main_eq (x0 : Vec Ideal S200x10000 .f32) (x1 : Vec Ideal S10000x39 .f32) (x2 : Vec Ideal S200x39 .f32) :
    k0_pay3 (F := Ideal) x0 x1 x2 = mainOf x0 x1 x2 := by
  funext j
  obtain ⟨r, q, rfl⟩ : ∃ (r : Fin 200) (q : Fin 7), j = ix2 r q := ⟨j 0, j 1, eq_ix2 j⟩
  exact main_apply x0 x1 x2 r q

end Cert.KernelIdeal.Pay0

end
-- ==== Proof.Region0.lean ====
/-
  The first pass's two result arrays, as whole-array functions of what the pass reads.

  The grid has 50 points; point t reads rows 200·t … 200·t + 199 of A and of the skip term and all of the feature
  matrix, and writes the same rows of the two results.  What it writes is the specification's value on those rows
  (the specification is row by row), and the 50 row blocks tile each result: so each result array ends holding the
  specification's value of the whole arrays.
-/
import proofs.«147145_j35545149341868_1_alg».proof.Proof.Gen.KernelIdeal.Frame
import proofs.«147145_j35545149341868_1_alg».proof.Proof.Pay0
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Region0

open Cert.KernelIdeal Cert.KernelIdeal.Gen Idealize.ShloMosaic.ValueIdx ArmaSpec

variable (V : (c : Dev nD) → (b : Ref sig .tc) → Buf (Elt Ideal) ((c : Thread nD τ).loc b))

theorem hz : (![0, 0] : Fin 2 → Nat) = fun _ => 0 := funext fun a => by fin_cases a <;> rfl

/-- The three arrays the pass reads, as the region finds them. -/
abbrev arrA (c : Dev nD) : Mat 10000 10000 := V c main_arg1
abbrev arrX (c : Dev nD) : Mat 10000 39 := V c main_v3
abbrev arrY (c : Dev nD) : Mat 10000 39 := V c main_v12

/-- Row r of block t is row 200·t + r of the array. -/
abbrev row (t : Fin cfg0.N) (r : Fin 200) : Fin 10000 :=
  ⟨t.val * 200 + r.val, by have h1 := t.isLt; have hN : cfg0.N = 50 := N_0; have h2 := r.isLt; omega⟩

/-- The printed index maps over the grid: the row-blocked windows are at block (t, 0), the whole one at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The block of A at point t is its rows from 200·t. -/
theorem blkA (c : Dev nD) (t : Fin cfg0.N) (r : Fin 200) (k : Fin 10000) :
    (iblk0 V c 0 t : Vec Ideal S200x10000 .f32) (ix2 r k) = arrA V c (ix2 (row t r) k) := by
  obtain ⟨e0, e1, -⟩ := idx_facts t
  unfold iblk0
  rw [View.read_apply]
  show V c main_arg1 _ = V c main_arg1 _
  congr 1
  funext a
  apply Fin.ext
  match a with
  | ⟨0, _⟩ => show win0_0.index t (0 : Fin 2) * 200 + 1 * r.val = t.val * 200 + r.val; omega
  | ⟨1, _⟩ => show win0_0.index t (1 : Fin 2) * 10000 + 1 * k.val = k.val; omega

/-- The feature matrix is read whole at every point. -/
theorem blkX (c : Dev nD) (t : Fin cfg0.N) : (iblk0 V c 1 t : Vec Ideal S10000x39 .f32) = arrX V c := by
  obtain ⟨-, -, e0, e1, -⟩ := idx_facts t
  funext j
  unfold iblk0
  rw [View.read_apply]
  show V c main_v3 _ = V c main_v3 _
  congr 1
  funext a
  apply Fin.ext
  match a with
  | ⟨0, _⟩ => show win0_1.index t (0 : Fin 2) * 10000 + 1 * (j 0).val = (j 0).val; omega
  | ⟨1, _⟩ => show win0_1.index t (1 : Fin 2) * 39 + 1 * (j 1).val = (j 1).val; omega

/-- The block of the skip term at point t is its rows from 200·t. -/
theorem blkY (c : Dev nD) (t : Fin cfg0.N) (r : Fin 200) (q : Fin 39) :
    (iblk0 V c 2 t : Vec Ideal S200x39 .f32) (ix2 r q) = arrY V c (ix2 (row t r) q) := by
  obtain ⟨-, -, -, -, e0, e1, -⟩ := idx_facts t
  unfold iblk0
  rw [View.read_apply]
  show V c main_v12 _ = V c main_v12 _
  congr 1
  funext a
  apply Fin.ext
  match a with
  | ⟨0, _⟩ => show win0_2.index t (0 : Fin 2) * 200 + 1 * r.val = t.val * 200 + r.val; omega
  | ⟨1, _⟩ => show win0_2.index t (1 : Fin 2) * 39 + 1 * q.val = q.val; omega

/-! ## The secondary features (window 3) -/

/-- What point t writes back is block t of the specification's secondary features of the whole arrays. -/
theorem flushed3_eq (c : Dev nD) (t : Fin cfg0.N) :
    (dat0 V c).flushed 3 t = ((cfg0.win 3).blk t).view.read (Elt Ideal) (secOf (arrA V c) (arrX V c) (arrY V c)) := by
  obtain ⟨-, -, -, -, -, -, e0, e1, -⟩ := idx_facts t
  show (cfg0.win 3).cut (grid0.coords t) ((dat0 V c).after 3 t) = _
  rw [after0_3]
  unfold out0_3
  rw [View.canon_unit_zero hz]
  simp only [View.ld_unit_zero (S := S200x10000) hz, View.ld_unit_zero (S := S10000x39) hz, View.ld_unit_zero (S := S200x39) hz]
  rw [Pay0.sec_eq (iblk0 V c 0 t) (iblk0 V c 1 t) (iblk0 V c 2 t), blkX V c t]
  funext j
  obtain ⟨r, q, rfl⟩ : ∃ (r : Fin 200) (q : Fin 32), j = ix2 r q := ⟨j 0, j 1, eq_ix2 j⟩
  rw [View.read_apply]
  have he : ((cfg0.win 3).blk t).view.emb (ix2 r q) = ix2 (row t r) q := by
    funext a
    apply Fin.ext
    match a with
    | ⟨0, _⟩ => show win0_3.index t (0 : Fin 2) * 200 + 1 * r.val = t.val * 200 + r.val; omega
    | ⟨1, _⟩ => show win0_3.index t (1 : Fin 2) * 32 + 1 * q.val = q.val; omega
  rw [he]
  exact secOf_rows (arrA V c) _ (arrX V c) (arrY V c) _ (row t r) r (blkA V c t r) (blkY V c t r) q

theorem mem_blk3 (t : Fin cfg0.N) (i : S10000x32.Idx) :
    i ∈ ((cfg0.win 3).blk t).view.set ↔ ∀ a : Fin 2, win0_3.index t a * S200x32.size a ≤ (i a).val ∧ (i a).val < win0_3.index t a * S200x32.size a + S200x32.size a := by
  show i ∈ ((View.whole main_v13_0).slice (win0_3.rect t)).set ↔ _
  rw [View.set_slice_whole, Rect.mem_set_unit]
  exact Iff.rfl

/-- Row p lies in the block of point p / 200. -/
theorem cover3 (i : S10000x32.Idx) : ∃ t : Fin cfg0.N, (cfg0.win 3).flush t = true ∧ i ∈ ((cfg0.win 3).blk t).view.set := by
  have hi0 : (i 0).val < 10000 := (i 0).isLt
  have hi1 : (i 1).val < 32 := (i 1).isLt
  have hN : cfg0.N = 50 := N_0
  let t : Fin cfg0.N := ⟨(i 0).val / 200, by rw [hN]; omega⟩
  have htv : t.val = (i 0).val / 200 := rfl
  obtain ⟨-, -, -, -, -, -, e0, e1, -⟩ := idx_facts t
  refine ⟨t, flush0_3 t, ?_⟩
  rw [mem_blk3]
  intro a
  match a with
  | ⟨0, _⟩ => show win0_3.index t (0 : Fin 2) * 200 ≤ (i 0).val ∧ (i 0).val < win0_3.index t (0 : Fin 2) * 200 + 200; omega
  | ⟨1, _⟩ => show win0_3.index t (1 : Fin 2) * 32 ≤ (i 1).val ∧ (i 1).val < win0_3.index t (1 : Fin 2) * 32 + 32; omega

/-- The secondary-feature array after the pass. -/
theorem final3 (c : Dev nD) : (dat0 V c).arrAt 3 cfg0.N = secOf (arrA V c) (arrX V c) (arrY V c) :=
  (dat0 V c).arrAt_eq_of_cover 3 _ (fun t _ => flushed3_eq V c t) cover3

/-! ## The main branch (window 4) -/

/-- What point t writes back is block t of the specification's main branch of the whole arrays. -/
theorem flushed4_eq (c : Dev nD) (t : Fin cfg0.N) :
    (dat0 V c).flushed 4 t = ((cfg0.win 4).blk t).view.read (Elt Ideal) (mainOf (arrA V c) (arrX V c) (arrY V c)) := by
  obtain ⟨-, -, -, -, -, -, -, -, e0, e1⟩ := idx_facts t
  show (cfg0.win 4).cut (grid0.coords t) ((dat0 V c).after 4 t) = _
  rw [after0_4]
  unfold out0_4
  rw [View.canon_unit_zero hz]
  simp only [View.ld_unit_zero (S := S200x10000) hz, View.ld_unit_zero (S := S10000x39) hz, View.ld_unit_zero (S := S200x39) hz]
  rw [Pay0.main_eq (iblk0 V c 0 t) (iblk0 V c 1 t) (iblk0 V c 2 t), blkX V c t]
  funext j
  obtain ⟨r, q, rfl⟩ : ∃ (r : Fin 200) (q : Fin 7), j = ix2 r q := ⟨j 0, j 1, eq_ix2 j⟩
  rw [View.read_apply]
  have he : ((cfg0.win 4).blk t).view.emb (ix2 r q) = ix2 (row t r) q := by
    funext a
    apply Fin.ext
    match a with
    | ⟨0, _⟩ => show win0_4.index t (0 : Fin 2) * 200 + 1 * r.val = t.val * 200 + r.val; omega
    | ⟨1, _⟩ => show win0_4.index t (1 : Fin 2) * 7 + 1 * q.val = q.val; omega
  rw [he]
  exact mainOf_rows (arrA V c) _ (arrX V c) (arrY V c) _ (row t r) r (blkA V c t r) (blkY V c t r) q

theorem mem_blk4 (t : Fin cfg0.N) (i : S10000x7.Idx) :
    i ∈ ((cfg0.win 4).blk t).view.set ↔ ∀ a : Fin 2, win0_4.index t a * S200x7.size a ≤ (i a).val ∧ (i a).val < win0_4.index t a * S200x7.size a + S200x7.size a := by
  show i ∈ ((View.whole main_v13_1).slice (win0_4.rect t)).set ↔ _
  rw [View.set_slice_whole, Rect.mem_set_unit]
  exact Iff.rfl

theorem cover4 (i : S10000x7.Idx) : ∃ t : Fin cfg0.N, (cfg0.win 4).flush t = true ∧ i ∈ ((cfg0.win 4).blk t).view.set := by
  have hi0 : (i 0).val < 10000 := (i 0).isLt
  have hi1 : (i 1).val < 7 := (i 1).isLt
  have hN : cfg0.N = 50 := N_0
  let t : Fin cfg0.N := ⟨(i 0).val / 200, by rw [hN]; omega⟩
  have htv : t.val = (i 0).val / 200 := rfl
  obtain ⟨-, -, -, -, -, -, -, -, e0, e1⟩ := idx_facts t
  refine ⟨t, flush0_4 t, ?_⟩
  rw [mem_blk4]
  intro a
  match a with
  | ⟨0, _⟩ => show win0_4.index t (0 : Fin 2) * 200 ≤ (i 0).val ∧ (i 0).val < win0_4.index t (0 : Fin 2) * 200 + 200; omega
  | ⟨1, _⟩ => show win0_4.index t (1 : Fin 2) * 7 ≤ (i 1).val ∧ (i 1).val < win0_4.index t (1 : Fin 2) * 7 + 7; omega

/-- The main-branch array after the pass. -/
theorem final4 (c : Dev nD) : (dat0 V c).arrAt 4 cfg0.N = mainOf (arrA V c) (arrX V c) (arrY V c) :=
  (dat0 V c).arrAt_eq_of_cover 4 _ (fun t _ => flushed4_eq V c t) cover4

end Cert.KernelIdeal.Region0

end
-- ==== Proof.LibKeepdims.lean ====
/-
  The two layout steps of a row reduction that keeps its dimension, read at an index.

  A reduction of an [a, b] array along its rows gives an [a] array; kept as a column it is cast to [a, 1] and then
  broadcast back to [a, b].  At entry (p, q) of the broadcast one reads the column's entry (p, 0), and there the cast
  reads the vector's entry p: every entry of row p sees the row's own reduced value.  Stated for any element type and
  any extents.
-/
import Idealize.ShloMosaic.Lib.Pipeline.Value
import Idealize.ShloMosaic.Lib.ValueIdx

noncomputable section

namespace KeepdimsLayout

open Idealize.ShloMosaic Idealize.ShloMosaic.ValueIdx

/-- An [a] array cast to [a, 1] reads, at (p, u), the operand at p, whatever the unit coordinate u. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] array broadcast to [a, b] reads, at (p, q), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end KeepdimsLayout

end
-- ==== Proof.LibRowSum.lean ====
/-
  A sum along the rows of a two-dimensional array, read at a row.

  Reducing an [m, n] array over its second axis leaves an [m] array; at row p the kernel's vector reduction from
  the zero accumulator is the plain sum of the row's n entries.  Stated for any extents.
-/
import Idealize.ShloMosaic.Lib.ValueIdx
import Idealize.ShloMosaic.PureOps.Ideal.Laws

noncomputable section

open scoped BigOperators

namespace RowSum

open Idealize.ShloMosaic Idealize.ShloMosaic.ValueIdx

variable {m n : Nat}

/-- The reduced index p with column k put back is (p, k). -/
theorem lift_ix2 (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The kernel's sum over the second axis from the zero word, at row p: the sum of the row. -/
theorem multiReduction_apply {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.add.neutral φ hφ) (p : Fin m) :
    multiReduction .add [1] (⟨1, ![m]⟩ : Shape) src acc h hφ hacc (ix1 p) = ∑ k : Fin n, src (ix2 p k) := by
  refine (Ideal.multiReduction_add_single src acc h hφ hacc (ix1 p)).trans ?_
  exact Finset.sum_congr rfl fun k _ => congrArg src (lift_ix2 h p k)

end RowSum

end
-- ==== Proof.LibRowMax.lean ====
/-
  A maximum along the rows of a two-dimensional array, read at a row.

  Reducing an [m, n] array over its second axis with the maximum leaves an [m] array; at row p it is the maximum
  of the starting value and of the row's n entries, in whatever order they are combined.  The same reading holds
  for a kernel's vector reduction and for a host reduction with a maximum body.  Stated for any extents.
-/
import Idealize.ShloMosaic.Lib.ValueIdx
import Idealize.ShloMosaic.PureOps.Ideal.Laws

noncomputable section

namespace RowMax

open Idealize.ShloMosaic Idealize.ShloMosaic.ValueIdx

variable {m n : Nat}

/-- The reduced index p with column k put back is (p, k). -/
theorem lift_ix2 (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A kernel's maximum over the second axis, at row p: the maximum of the starting word's value and the row. -/
theorem multiReduction_apply {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.maximumf.neutral φ hφ) (p : Fin m) :
    multiReduction .maximumf [1] (⟨1, ![m]⟩ : Shape) src acc h hφ hacc (ix1 p)
      = (Finset.univ : Finset (Fin n)).fold max (Ideal.ofBits φ acc) (fun k => src (ix2 p k)) := by
  refine (Ideal.multiReduction_maximumf_single src acc h hφ hacc (ix1 p)).trans ?_
  show (Finset.univ : Finset (Fin n)).fold max (Ideal.ofBits φ acc) (src ∘ h.lift (ix1 p)) = _
  exact Finset.fold_congr fun k _ => congrArg src (lift_ix2 h p k)

/-- A host reduction with a maximum body over the second axis, at row p: the same maximum, from the initial value. -/
theorem hostReduce_apply {φ : FTy} {u : Shape} (x : (⟨2, ![m, n]⟩ : Shape).Idx → Ideal φ) (init : u.Idx → Ideal φ)
    (h' : (⟨2, ![m, n]⟩ : Shape).ReducesTo [1] (⟨1, ![m]⟩ : Shape))
    (h : (⟨2, ![m, n]⟩ : Shape).Reduces [1] (⟨1, ![m]⟩ : Shape)) (hu : 0 < u.numel) (p : Fin m) :
    Host.reduce (FloatOps.maximumf (F := Ideal) (φ := φ)) x init h' hu (ix1 p)
      = (Finset.univ : Finset (Fin n)).fold max (init (Shape.Idx.first hu)) (fun k => x (ix2 p k)) := by
  rw [Host.reduce_eq_fold_single (FloatOps.maximumf (F := Ideal) (φ := φ)) x init h' h hu (ix1 p)]
  show (Finset.univ : Finset (Fin n)).fold max (init (Shape.Idx.first hu)) (x ∘ h.lift (ix1 p)) = _
  exact Finset.fold_congr fun k _ => congrArg x (lift_ix2 h p k)

end RowMax

end
-- ==== Proof.Pay1.lean ====
/-
  The second pass's stored value, entry by entry.

  On a block of 200 rows the body multiplies the block of A by the 7-column feature matrix, adds the block of the
  skip term, mixes the result (weight v₁, a 1 × 1 array) with the block of the main branch (weight v₂), halves, and
  takes the softmax of every row: the row's maximum (from minus infinity, kept as a column and spread back over the
  row), the exponentials of the differences, and their quotient by the row's sum.
-/
import proofs.«147145_j35545149341868_1_alg».proof.Proof.Gen.KernelIdeal.Skeleton
import proofs.«147145_j35545149341868_1_alg».proof.Proof.Spec
import proofs.«147145_j35545149341868_1_alg».proof.Proof.LibPlainDot
import proofs.«147145_j35545149341868_1_alg».proof.Proof.LibKeepdims
import proofs.«147145_j35545149341868_1_alg».proof.Proof.LibRowSum
import proofs.«147145_j35545149341868_1_alg».proof.Proof.LibRowMax
import Idealize.ShloMosaic.Lib.Pipeline.Value

noncomputable section

open scoped BigOperators

namespace Cert.KernelIdeal.Pay1

open Idealize.ShloMosaic Idealize.ShloMosaic.ValueIdx Cert.KernelIdeal Cert.KernelIdeal.Gen ArmaSpec

/-- The 7-column product's dimension numbers are those of a plain matrix product. -/
theorem plain7 : PlainDot.IsPlain (M := 200) (K := 10000) (N := 7) dot_S200x10000_S10000x7_S200x7_1_0_0_1_n_n :=
  ⟨rfl, rfl, rfl, rfl, rfl, rfl⟩

/-- A 1 × 1 array spread over a 200 × 7 block reads its one entry everywhere. -/
theorem bcast11_apply (v : Vec Ideal S1x1 .f32) (r : Fin 200) (q : Fin 7) :
    broadcastTo S200x7 v broadcasts_S1x1_S200x7 (ix2 r q) = v (ix2 0 0) := by
  refine broadcastTo_apply v broadcasts_S1x1_S200x7 (ix2 r q) (ix2 0 0) fun a => ?_
  match a with
  | ⟨0, _⟩ => rfl
  | ⟨1, _⟩ => rfl

/-- The halved mix, before the softmax. -/
def mixTerm (v0 : Vec Ideal S200x10000 .f32) (v2 : Vec Ideal S10000x7 .f32) (v6 v9 : Vec Ideal S200x7 .f32)
    (v11 v13 : Vec Ideal S1x1 .f32) : FVec Ideal S200x7 .f32 :=
  mulf (broadcast S200x7 (Scalar.ofBits (F := Ideal) .f32 0x3F000000#32))
    (addf (mulf (broadcastTo S200x7 (shapeCast S1x1 v13 shapeCasts_S1x1_S1x1) broadcasts_S1x1_S200x7) (shapeCast S200x7 v9 shapeCasts_S200x7_S200x7))
      (mulf (broadcastTo S200x7 (shapeCast S1x1 v11 shapeCasts_S1x1_S1x1) broadcasts_S1x1_S200x7)
        (addf (matmul dot_S200x10000_S10000x7_S200x7_1_0_0_1_n_n none (truncf .bf16 v0 bitsLt_bf16_f32)
            (truncf .bf16 (shapeCast S10000x7 v2 shapeCasts_S10000x7_S10000x7) bitsLt_bf16_f32) (constant S200x7 .f32 0x00000000#32))
          (shapeCast S200x7 v6 shapeCasts_S200x7_S200x7))))

/-- The mix is the specification's, of the blocks and the two weights. -/
theorem mixTerm_eq (v0 : Vec Ideal S200x10000 .f32) (v2 : Vec Ideal S10000x7 .f32) (v6 v9 : Vec Ideal S200x7 .f32)
    (v11 v13 : Vec Ideal S1x1 .f32) :
    mixTerm v0 v2 v6 v9 v11 v13 = mixOf v0 v2 v6 v9 (v11 (ix2 0 0)) (v13 (ix2 0 0)) := by
  funext j
  obtain ⟨r, q, rfl⟩ : ∃ (r : Fin 200) (q : Fin 7), j = ix2 r q := ⟨j 0, j 1, eq_ix2 j⟩
  unfold mixTerm
  rw [mulf_apply, broadcast_apply, addf_apply, mulf_apply, mulf_apply, bcast11_apply, bcast11_apply, addf_apply,
    shapeCast_self, shapeCast_self, shapeCast_self, shapeCast_self, shapeCast_self,
    PlainDot.matmul_zero_apply plain7 none _ _ r q]
  rfl

/-- The softmax of a 200 × 7 block as the body computes it. -/
def softTerm (z : FVec Ideal S200x7 .f32) : FVec Ideal S200x7 .f32 :=
  divf
    (exp (subf z (broadcastTo S200x7 (shapeCast S200x1 (maximumf (broadcast S200 (Scalar.ofBits (F := Ideal) .f32 0xFF800000#32))
      (multiReduction .maximumf [1] S200 z 0xFF800000#32 reduces_S200x7_S200 (.inl rfl) rfl)) shapeCasts_S200_S200x1) broadcasts_S200x1_S200x7)))
    (broadcastTo S200x7 (shapeCast S200x1 (multiReduction .add [1] S200
      (exp (subf z (broadcastTo S200x7 (shapeCast S200x1 (maximumf (broadcast S200 (Scalar.ofBits (F := Ideal) .f32 0xFF800000#32))
        (multiReduction .maximumf [1] S200 z 0xFF800000#32 reduces_S200x7_S200 (.inl rfl) rfl)) shapeCasts_S200_S200x1) broadcasts_S200x1_S200x7)))
      0x00000000#32 reduces_S200x7_S200 (.inl rfl) rfl) shapeCasts_S200_S200x1) broadcasts_S200x1_S200x7)

/-- The row maximum of a block from the word of minus infinity, at row r. -/
theorem rowmax_red (z : FVec Ideal S200x7 .f32) (hφ : FKind.Formats .f32)
    (hacc : (0xFF800000#32 : BitVec 32) = 0xFF800000#32) (r : Fin 200) :
    multiReduction .maximumf [1] S200 z 0xFF800000#32 reduces_S200x7_S200 hφ hacc (ix1 r)
      = (Finset.univ : Finset (Fin 7)).fold max negInfW (fun k => z (ix2 r k)) :=
  RowMax.multiReduction_apply z 0xFF800000#32 reduces_S200x7_S200 hφ hacc r

/-- The row sum of a block from the zero word, at row r. -/
theorem rowsum_red (z : FVec Ideal S200x7 .f32) (hφ : FKind.Formats .f32)
    (hacc : (0x00000000#32 : BitVec 32) = 0x00000000#32) (r : Fin 200) :
    multiReduction .add [1] S200 z 0x00000000#32 reduces_S200x7_S200 hφ hacc (ix1 r) = ∑ k : Fin 7, z (ix2 r k) :=
  RowSum.multiReduction_apply z 0x00000000#32 reduces_S200x7_S200 hφ hacc r

/-- The row maximum kept as a column and spread back, read at an entry. -/
theorem maxcol_apply (z : FVec Ideal S200x7 .f32) (r : Fin 200) (q : Fin 7) :
    broadcastTo S200x7 (shapeCast S200x1 (maximumf (broadcast S200 (Scalar.ofBits (F := Ideal) .f32 0xFF800000#32))
      (multiReduction .maximumf [1] S200 z 0xFF800000#32 reduces_S200x7_S200 (.inl rfl) rfl)) shapeCasts_S200_S200x1) broadcasts_S200x1_S200x7 (ix2 r q)
      = rowMax z r := by
  rw [KeepdimsLayout.broadcastTo_a1_ab_apply, KeepdimsLayout.shapeCast_a_a1_apply, maximumf_apply, broadcast_apply]
  exact congrArg (max negInfW) (rowmax_red z _ _ r)

/-- The shifted exponentials, read at an entry. -/
theorem expcol_apply (z : FVec Ideal S200x7 .f32) (r : Fin 200) (q : Fin 7) :
    exp (subf z (broadcastTo S200x7 (shapeCast S200x1 (maximumf (broadcast S200 (Scalar.ofBits (F := Ideal) .f32 0xFF800000#32))
      (multiReduction .maximumf [1] S200 z 0xFF800000#32 reduces_S200x7_S200 (.inl rfl) rfl)) shapeCasts_S200_S200x1) broadcasts_S200x1_S200x7)) (ix2 r q)
      = expShift z r q := by
  show Ideal.exp (subf z _ (ix2 r q)) = _
  rw [subf_apply, maxcol_apply]
  rfl

/-- The body's softmax is the specification's. -/
theorem softTerm_eq (z : FVec Ideal S200x7 .f32) : softTerm z = softOf z := by
  funext j
  obtain ⟨r, q, rfl⟩ : ∃ (r : Fin 200) (q : Fin 7), j = ix2 r q := ⟨j 0, j 1, eq_ix2 j⟩
  unfold softTerm
  rw [divf_apply, expcol_apply, KeepdimsLayout.broadcastTo_a1_ab_apply, KeepdimsLayout.shapeCast_a_a1_apply]
  refine congrArg (Ideal.div (expShift z r q)) ((rowsum_red _ _ _ r).trans ?_)
  exact Finset.sum_congr rfl fun k _ => expcol_apply z r k

/-- The stored block is the specification's second pass of the blocks and the two weights. -/
theorem out_eq (v0 : Vec Ideal S200x10000 .f32) (v2 : Vec Ideal S10000x7 .f32) (v6 v9 : Vec Ideal S200x7 .f32)
    (v11 v13 : Vec Ideal S1x1 .f32) :
    k1_pay1 (F := Ideal) v0 v2 v6 v9 v11 v13 = outOf v0 v2 v6 v9 (v11 (ix2 0 0)) (v13 (ix2 0 0)) := by
  show softTerm (mixTerm v0 v2 v6 v9 v11 v13) = _
  rw [softTerm_eq, mixTerm_eq]
  rfl

end Cert.KernelIdeal.Pay1

end
-- ==== Proof.Region1.lean ====
/-
  The second pass's result array, as a whole-array function of what the pass reads.

  The grid has 50 points; point t reads rows 200·t … 200·t + 199 of A, of the skip term and of the main branch, all
  of the 7-column feature matrix and the two 1 × 1 weights, and writes the same rows of the result.  What it writes
  is the specification's value on those rows, and the 50 row blocks tile the result.
-/
import proofs.«147145_j35545149341868_1_alg».proof.Proof.Gen.KernelIdeal.Frame
import proofs.«147145_j35545149341868_1_alg».proof.Proof.Pay1
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Region1

open Cert.KernelIdeal Cert.KernelIdeal.Gen Idealize.ShloMosaic.ValueIdx ArmaSpec

variable (V : (c : Dev nD) → (b : Ref sig .tc) → Buf (Elt Ideal) ((c : Thread nD τ).loc b))

theorem hz : (![0, 0] : Fin 2 → Nat) = fun _ => 0 := funext fun a => by fin_cases a <;> rfl

/-- The arrays the pass reads, as the region finds them. -/
abbrev arrA (c : Dev nD) : Mat 10000 10000 := V c main_arg1
abbrev arrX (c : Dev nD) : Mat 10000 7 := V c main_v15
abbrev arrY (c : Dev nD) : Mat 10000 7 := V c main_v19
abbrev arrM (c : Dev nD) : Mat 10000 7 := V c main_v13_1
abbrev arrV1 (c : Dev nD) : Mat 1 1 := V c main_v20
abbrev arrV2 (c : Dev nD) : Mat 1 1 := V c main_v21

/-- Row r of block t is row 200·t + r of the array. -/
abbrev row (t : Fin cfg1.N) (r : Fin 200) : Fin 10000 :=
  ⟨t.val * 200 + r.val, by have h1 := t.isLt; have hN : cfg1.N = 50 := N_1; have h2 := r.isLt; omega⟩

/-- The printed index maps over the grid: the row-blocked windows are at block (t, 0), the whole ones at (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem blkA (c : Dev nD) (t : Fin cfg1.N) (r : Fin 200) (k : Fin 10000) :
    (iblk1 V c 0 t : Vec Ideal S200x10000 .f32) (ix2 r k) = arrA V c (ix2 (row t r) k) := by
  obtain ⟨e0, e1, -⟩ := idx_facts t
  unfold iblk1
  rw [View.read_apply]
  show V c main_arg1 _ = V c main_arg1 _
  congr 1
  funext a
  apply Fin.ext
  match a with
  | ⟨0, _⟩ => show win1_0.index t (0 : Fin 2) * 200 + 1 * r.val = t.val * 200 + r.val; omega
  | ⟨1, _⟩ => show win1_0.index t (1 : Fin 2) * 10000 + 1 * k.val = k.val; omega

theorem blkX (c : Dev nD) (t : Fin cfg1.N) : (iblk1 V c 1 t : Vec Ideal S10000x7 .f32) = arrX V c := by
  obtain ⟨-, -, e0, e1, -⟩ := idx_facts t
  funext j
  unfold iblk1
  rw [View.read_apply]
  show V c main_v15 _ = V c main_v15 _
  congr 1
  funext a
  apply Fin.ext
  match a with
  | ⟨0, _⟩ => show win1_1.index t (0 : Fin 2) * 10000 + 1 * (j 0).val = (j 0).val; omega
  | ⟨1, _⟩ => show win1_1.index t (1 : Fin 2) * 7 + 1 * (j 1).val = (j 1).val; omega

theorem blkY (c : Dev nD) (t : Fin cfg1.N) (r : Fin 200) (q : Fin 7) :
    (iblk1 V c 2 t : Vec Ideal S200x7 .f32) (ix2 r q) = arrY V c (ix2 (row t r) q) := by
  obtain ⟨-, -, -, -, e0, e1, -⟩ := idx_facts t
  unfold iblk1
  rw [View.read_apply]
  show V c main_v19 _ = V c main_v19 _
  congr 1
  funext a
  apply Fin.ext
  match a with
  | ⟨0, _⟩ => show win1_2.index t (0 : Fin 2) * 200 + 1 * r.val = t.val * 200 + r.val; omega
  | ⟨1, _⟩ => show win1_2.index t (1 : Fin 2) * 7 + 1 * q.val = q.val; omega

theorem blkM (c : Dev nD) (t : Fin cfg1.N) (r : Fin 200) (q : Fin 7) :
    (iblk1 V c 3 t : Vec Ideal S200x7 .f32) (ix2 r q) = arrM V c (ix2 (row t r) q) := by
  obtain ⟨-, -, -, -, -, -, e0, e1, -⟩ := idx_facts t
  unfold iblk1
  rw [View.read_apply]
  show V c main_v13_1 _ = V c main_v13_1 _
  congr 1
  funext a
  apply Fin.ext
  match a with
  | ⟨0, _⟩ => show win1_3.index t (0 : Fin 2) * 200 + 1 * r.val = t.val * 200 + r.val; omega
  | ⟨1, _⟩ => show win1_3.index t (1 : Fin 2) * 7 + 1 * q.val = q.val; omega

theorem blkV1 (c : Dev nD) (t : Fin cfg1.N) : (iblk1 V c 4 t : Vec Ideal S1x1 .f32) (ix2 0 0) = arrV1 V c (ix2 0 0) := by
  obtain ⟨-, -, -, -, -, -, -, -, e0, e1, -⟩ := idx_facts t
  unfold iblk1
  rw [View.read_apply]
  show V c main_v20 _ = V c main_v20 _
  congr 1
  funext a
  apply Fin.ext
  match a with
  | ⟨0, _⟩ => show win1_4.index t (0 : Fin 2) * 1 + 1 * 0 = 0; omega
  | ⟨1, _⟩ => show win1_4.index t (1 : Fin 2) * 1 + 1 * 0 = 0; omega

theorem blkV2 (c : Dev nD) (t : Fin cfg1.N) : (iblk1 V c 5 t : Vec Ideal S1x1 .f32) (ix2 0 0) = arrV2 V c (ix2 0 0) := by
  obtain ⟨-, -, -, -, -, -, -, -, -, -, e0, e1, -⟩ := idx_facts t
  unfold iblk1
  rw [View.read_apply]
  show V c main_v21 _ = V c main_v21 _
  congr 1
  funext a
  apply Fin.ext
  match a with
  | ⟨0, _⟩ => show win1_5.index t (0 : Fin 2) * 1 + 1 * 0 = 0; omega
  | ⟨1, _⟩ => show win1_5.index t (1 : Fin 2) * 1 + 1 * 0 = 0; omega

/-- What point t writes back is block t of the specification's second pass of the whole arrays. -/
theorem flushed6_eq (c : Dev nD) (t : Fin cfg1.N) :
    (dat1 V c).flushed 6 t = ((cfg1.win 6).blk t).view.read (Elt Ideal)
      (outOf (arrA V c) (arrX V c) (arrY V c) (arrM V c) (arrV1 V c (ix2 0 0)) (arrV2 V c (ix2 0 0))) := by
  obtain ⟨-, -, -, -, -, -, -, -, -, -, -, -, e0, e1⟩ := idx_facts t
  show (cfg1.win 6).cut (grid1.coords t) ((dat1 V c).after 6 t) = _
  rw [after1_6]
  unfold out1_6
  rw [View.canon_unit_zero hz]
  simp only [View.ld_unit_zero (S := S200x10000) hz, View.ld_unit_zero (S := S10000x7) hz, View.ld_unit_zero (S := S200x7) hz,
    View.ld_unit_zero (S := S1x1) hz]
  rw [Pay1.out_eq (iblk1 V c 0 t) (iblk1 V c 1 t) (iblk1 V c 2 t) (iblk1 V c 3 t) (iblk1 V c 4 t) (iblk1 V c 5 t),
    blkX V c t, blkV1 V c t, blkV2 V c t]
  funext j
  obtain ⟨r, q, rfl⟩ : ∃ (r : Fin 200) (q : Fin 7), j = ix2 r q := ⟨j 0, j 1, eq_ix2 j⟩
  rw [View.read_apply]
  have he : ((cfg1.win 6).blk t).view.emb (ix2 r q) = ix2 (row t r) q := by
    funext a
    apply Fin.ext
    match a with
    | ⟨0, _⟩ => show win1_6.index t (0 : Fin 2) * 200 + 1 * r.val = t.val * 200 + r.val; omega
    | ⟨1, _⟩ => show win1_6.index t (1 : Fin 2) * 7 + 1 * q.val = q.val; omega
  rw [he]
  exact outOf_rows (arrA V c) _ (arrX V c) (arrY V c) (arrM V c) _ _ _ _ (row t r) r (blkA V c t r) (blkY V c t r) (blkM V c t r) q

theorem mem_blk6 (t : Fin cfg1.N) (i : S10000x7.Idx) :
    i ∈ ((cfg1.win 6).blk t).view.set ↔ ∀ a : Fin 2, win1_6.index t a * S200x7.size a ≤ (i a).val ∧ (i a).val < win1_6.index t a * S200x7.size a + S200x7.size a := by
  show i ∈ ((View.whole main_v22).slice (win1_6.rect t)).set ↔ _
  rw [View.set_slice_whole, Rect.mem_set_unit]
  exact Iff.rfl

/-- Row p lies in the block of point p / 200. -/
theorem cover6 (i : S10000x7.Idx) : ∃ t : Fin cfg1.N, (cfg1.win 6).flush t = true ∧ i ∈ ((cfg1.win 6).blk t).view.set := by
  have hi0 : (i 0).val < 10000 := (i 0).isLt
  have hi1 : (i 1).val < 7 := (i 1).isLt
  have hN : cfg1.N = 50 := N_1
  let t : Fin cfg1.N := ⟨(i 0).val / 200, by rw [hN]; omega⟩
  have htv : t.val = (i 0).val / 200 := rfl
  obtain ⟨-, -, -, -, -, -, -, -, -, -, -, -, e0, e1⟩ := idx_facts t
  refine ⟨t, flush1_6 t, ?_⟩
  rw [mem_blk6]
  intro a
  match a with
  | ⟨0, _⟩ => show win1_6.index t (0 : Fin 2) * 200 ≤ (i 0).val ∧ (i 0).val < win1_6.index t (0 : Fin 2) * 200 + 200; omega
  | ⟨1, _⟩ => show win1_6.index t (1 : Fin 2) * 7 ≤ (i 1).val ∧ (i 1).val < win1_6.index t (1 : Fin 2) * 7 + 7; omega

/-- The result array after the pass. -/
theorem final6 (c : Dev nD) : (dat1 V c).arrAt 6 cfg1.N
    = outOf (arrA V c) (arrX V c) (arrY V c) (arrM V c) (arrV1 V c (ix2 0 0)) (arrV2 V c (ix2 0 0)) :=
  (dat1 V c).arrAt_eq_of_cover 6 _ (fun t _ => flushed6_eq V c t) cover6

end Cert.KernelIdeal.Region1

end
-- ==== Proof.KValue.lean ====
/-
  What the kernel's program leaves in its result array, as one term of the argument arrays.

  The program is four stretches: host operations that prepare the first pass's two 39-column operands; the first
  pass; host operations that prepare the second pass's operands from the secondary features; the second pass.
  Each pass's result arrays are the specification's functions of the arrays it reads (the two region modules);
  each host stretch's results are its operations applied to what was there before; no stretch writes an argument.
-/
import proofs.«147145_j35545149341868_1_alg».proof.Proof.KRun
import proofs.«147145_j35545149341868_1_alg».proof.Proof.Region0
import proofs.«147145_j35545149341868_1_alg».proof.Proof.Region1
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.KValue

open Cert.KernelIdeal Cert.KernelIdeal.Gen Idealize.ShloMosaic.ValueIdx ArmaSpec

/-! ## The host stretches as functions of arrays -/

section Stages

variable (x0 : (⟨S10000x128, .f32⟩ : BufTy).Contents (Elt Ideal)) (x1 : (⟨S10000x10000, .f32⟩ : BufTy).Contents (Elt Ideal))
  (x2 : (⟨S10000x64, .f32⟩ : BufTy).Contents (Elt Ideal)) (x3 x4 : (⟨S128x32, .f32⟩ : BufTy).Contents (Elt Ideal))
  (x5 : (⟨S32, .f32⟩ : BufTy).Contents (Elt Ideal)) (x6 x7 : (⟨S96x7, .f32⟩ : BufTy).Contents (Elt Ideal))
  (x8 : (⟨S7, .f32⟩ : BufTy).Contents (Elt Ideal)) (x9 x10 : (⟨S192x7, .f32⟩ : BufTy).Contents (Elt Ideal))
  (x11 : (⟨S7, .f32⟩ : BufTy).Contents (Elt Ideal)) (x12 x13 : (⟨S_, .f32⟩ : BufTy).Contents (Elt Ideal))
  (sec : (⟨S10000x32, .f32⟩ : BufTy).Contents (Elt Ideal))

/-- The temporal and path features side by side. -/
def hIn : (⟨S10000x192, .f32⟩ : BufTy).Contents (Elt Ideal) :=
  concatenate S10000x192 1 [⟨S10000x128, x0⟩, ⟨S10000x64, x2⟩] concatenates_S10000x128_S10000x64_S10000x192_d1

/-- The first pass's feature operand: the secondary and the main pre-transforms side by side. -/
def hX1 : (⟨S10000x39, .f32⟩ : BufTy).Contents (Elt Ideal) :=
  concatenate S10000x39 1
    [⟨S10000x32, Host.dotGeneral (F := Ideal) (φ₁ := .f32) (φ₂ := .f32) dot_S10000x128_S128x32_S10000x32_1_0_0_1_n_n none x0 x3⟩,
     ⟨S10000x7, Host.dotGeneral (F := Ideal) (φ₁ := .f32) (φ₂ := .f32) dot_S10000x192_S192x7_S10000x7_1_0_0_1_n_n none (hIn x0 x2) x9⟩]
    concatenates_S10000x32_S10000x7_S10000x39_d1

/-- The first pass's skip operand: the two skip terms with their biases, side by side. -/
def hY2 : (⟨S10000x39, .f32⟩ : BufTy).Contents (Elt Ideal) :=
  concatenate S10000x39 1
    [⟨S10000x32, addf (F := Ideal) (Host.dotGeneral (F := Ideal) (φ₁ := .f32) (φ₂ := .f32) dot_S10000x128_S128x32_S10000x32_1_0_0_1_n_n none x0 x4)
        (broadcastInDim S10000x32 ![0, 1] bcast_S1x32_S10000x32_0_1 (broadcastInDim S1x32 ![1] bcast_S32_S1x32_1 x5))⟩,
     ⟨S10000x7, addf (F := Ideal) (Host.dotGeneral (F := Ideal) (φ₁ := .f32) (φ₂ := .f32) dot_S10000x192_S192x7_S10000x7_1_0_0_1_n_n none (hIn x0 x2) x10)
        (broadcastInDim S10000x7 ![0, 1] bcast_S1x7_S10000x7_0_1 (broadcastInDim S1x7 ![1] bcast_S7_S1x7_1 x11))⟩]
    concatenates_S10000x32_S10000x7_S10000x39_d1

/-- The secondary and path features side by side. -/
def hSecIn : (⟨S10000x96, .f32⟩ : BufTy).Contents (Elt Ideal) :=
  concatenate S10000x96 1 [⟨S10000x32, sec⟩, ⟨S10000x64, x2⟩] concatenates_S10000x32_S10000x64_S10000x96_d1

/-- The second pass's feature operand. -/
def hX2 : (⟨S10000x7, .f32⟩ : BufTy).Contents (Elt Ideal) :=
  Host.dotGeneral (F := Ideal) (φ₁ := .f32) (φ₂ := .f32) dot_S10000x96_S96x7_S10000x7_1_0_0_1_n_n none (hSecIn x2 sec) x6

/-- The second pass's skip operand, with its bias. -/
def hY2b : (⟨S10000x7, .f32⟩ : BufTy).Contents (Elt Ideal) :=
  addf (F := Ideal) (Host.dotGeneral (F := Ideal) (φ₁ := .f32) (φ₂ := .f32) dot_S10000x96_S96x7_S10000x7_1_0_0_1_n_n none (hSecIn x2 sec) x7)
    (broadcastInDim S10000x7 ![0, 1] bcast_S1x7_S10000x7_0_1 (broadcastInDim S1x7 ![1] bcast_S7_S1x7_1 x8))

/-- A scalar as a 1 × 1 array. -/
def hW (x : (⟨S_, .f32⟩ : BufTy).Contents (Elt Ideal)) : (⟨S1x1, .f32⟩ : BufTy).Contents (Elt Ideal) :=
  shapeCast S1x1 x shapeCasts_S_S1x1

/-- Its one entry is the scalar's. -/
theorem hW_apply (x : (⟨S_, .f32⟩ : BufTy).Contents (Elt Ideal)) : hW x (ix2 0 0) = x ix0 := by
  unfold hW shapeCast
  exact congrArg x (eq_ix0 _)

/-- The whole program's result, from the argument arrays. -/
def kOut : (⟨S10000x7, .f32⟩ : BufTy).Contents (Elt Ideal) :=
  outOf x1
    (hX2 x2 x6 (secOf x1 (hX1 x0 x2 x3 x9) (hY2 x0 x2 x4 x5 x10 x11)))
    (hY2b x2 x7 x8 (secOf x1 (hX1 x0 x2 x3 x9) (hY2 x0 x2 x4 x5 x10 x11)))
    (mainOf x1 (hX1 x0 x2 x3 x9) (hY2 x0 x2 x4 x5 x10 x11))
    (hW x12 (ix2 0 0)) (hW x13 (ix2 0 0))

end Stages

/-! ## The run's boundary contents, read -/

variable (m : (ℓ : Loc nD τ sig) → Buf (Elt Ideal) ℓ) (ρ : Dev nD → PrngReg)

/-- No operation of the first stretch writes an argument. -/
theorem W1_arg (c : Dev nD) (b : Ref sig .tc)
    (hb : b = main_arg0 ∨ b = main_arg1 ∨ b = main_arg2 ∨ b = main_arg3 ∨ b = main_arg4 ∨ b = main_arg5 ∨ b = main_arg6
      ∨ b = main_arg7 ∨ b = main_arg8 ∨ b = main_arg9 ∨ b = main_arg10 ∨ b = main_arg11 ∨ b = main_arg12 ∨ b = main_arg13) :
    W1 m ρ c (Proc.devRef .tc b) = m ((c : Thread nD τ).loc b) := by
  rcases hb with rfl | rfl | rfl | rfl | rfl | rfl | rfl | rfl | rfl | rfl | rfl | rfl | rfl | rfl <;>
  · dsimp only [W1, hostOps0]
    after_results

/-- The first pass's feature operand. -/
theorem V1_v3 (c : Dev nD) : V1 m ρ c main_v3
    = hX1 (m ((c : Thread nD τ).loc main_arg0)) (m ((c : Thread nD τ).loc main_arg2)) (m ((c : Thread nD τ).loc main_arg3))
        (m ((c : Thread nD τ).loc main_arg9)) := by
  dsimp only [V1, W1, hostOps0]
  after_results
  rfl

/-- The first pass's skip operand. -/
theorem V1_v12 (c : Dev nD) : V1 m ρ c main_v12
    = hY2 (m ((c : Thread nD τ).loc main_arg0)) (m ((c : Thread nD τ).loc main_arg2)) (m ((c : Thread nD τ).loc main_arg4))
        (m ((c : Thread nD τ).loc main_arg5)) (m ((c : Thread nD τ).loc main_arg10)) (m ((c : Thread nD τ).loc main_arg11)) := by
  dsimp only [V1, W1, hostOps0]
  after_results
  rfl

/-- The first pass writes no argument (it reads A through an input window, which it leaves as it was): at its exit
    an argument still holds its launch contents. -/
theorem W2_arg (c : Dev nD) (b : Ref sig .tc)
    (hb : b = main_arg1 ∨ b = main_arg2 ∨ b = main_arg6 ∨ b = main_arg7 ∨ b = main_arg8 ∨ b = main_arg12 ∨ b = main_arg13) :
    W2 m ρ c (Proc.devRef .tc b) = m ((c : Thread nD τ).loc b) := by
  rcases hb with rfl | rfl | rfl | rfl | rfl | rfl | rfl
  · exact ((W2_arr m ρ c 0).trans (((dat0 (V1 m ρ) c).arrAt_in 0 rfl _).trans (A_eq0 (V1 m ρ) c 0))).trans
      (W1_arg m ρ c _ (.inr (.inl rfl)))
  · exact (W2_of_ne m ρ c _ (by decide)).trans (W1_arg m ρ c _ (.inr (.inr (.inl rfl))))
  · exact (W2_of_ne m ρ c _ (by decide)).trans (W1_arg m ρ c _ (.inr (.inr (.inr (.inr (.inr (.inr (.inl rfl))))))))
  · exact (W2_of_ne m ρ c _ (by decide)).trans (W1_arg m ρ c _ (.inr (.inr (.inr (.inr (.inr (.inr (.inr (.inl rfl)))))))))
  · exact (W2_of_ne m ρ c _ (by decide)).trans (W1_arg m ρ c _ (.inr (.inr (.inr (.inr (.inr (.inr (.inr (.inr (.inl rfl))))))))))
  · exact (W2_of_ne m ρ c _ (by decide)).trans
      (W1_arg m ρ c _ (.inr (.inr (.inr (.inr (.inr (.inr (.inr (.inr (.inr (.inr (.inr (.inr (.inl rfl))))))))))))))
  · exact (W2_of_ne m ρ c _ (by decide)).trans
      (W1_arg m ρ c _ (.inr (.inr (.inr (.inr (.inr (.inr (.inr (.inr (.inr (.inr (.inr (.inr (.inr rfl))))))))))))))

/-- The two operands of the first pass, as the run has them. -/
abbrev kX1 (c : Dev nD) := hX1 (m ((c : Thread nD τ).loc main_arg0)) (m ((c : Thread nD τ).loc main_arg2))
  (m ((c : Thread nD τ).loc main_arg3)) (m ((c : Thread nD τ).loc main_arg9))
abbrev kY2 (c : Dev nD) := hY2 (m ((c : Thread nD τ).loc main_arg0)) (m ((c : Thread nD τ).loc main_arg2))
  (m ((c : Thread nD τ).loc main_arg4)) (m ((c : Thread nD τ).loc main_arg5)) (m ((c : Thread nD τ).loc main_arg10))
  (m ((c : Thread nD τ).loc main_arg11))

/-- The secondary features after the first pass. -/
theorem W2_sec (c : Dev nD) : W2 m ρ c (Proc.devRef .tc main_v13_0)
    = secOf (m ((c : Thread nD τ).loc main_arg1)) (kX1 m c) (kY2 m c) := by
  refine (W2_arr m ρ c 3).trans ((Region0.final3 (V1 m ρ) c).trans ?_)
  show secOf (V1 m ρ c main_arg1) (V1 m ρ c main_v3) (V1 m ρ c main_v12) = _
  rw [V1_v3, V1_v12, show V1 m ρ c main_arg1 = m ((c : Thread nD τ).loc main_arg1) from W1_arg m ρ c _ (.inr (.inl rfl))]

/-- The main branch after the first pass. -/
theorem W2_main (c : Dev nD) : W2 m ρ c (Proc.devRef .tc main_v13_1)
    = mainOf (m ((c : Thread nD τ).loc main_arg1)) (kX1 m c) (kY2 m c) := by
  refine (W2_arr m ρ c 4).trans ((Region0.final4 (V1 m ρ) c).trans ?_)
  show mainOf (V1 m ρ c main_arg1) (V1 m ρ c main_v3) (V1 m ρ c main_v12) = _
  rw [V1_v3, V1_v12, show V1 m ρ c main_arg1 = m ((c : Thread nD τ).loc main_arg1) from W1_arg m ρ c _ (.inr (.inl rfl))]

/-- What the second pass reads, one array at a time. -/
theorem V3_arg1 (c : Dev nD) : V3 m ρ c main_arg1 = m ((c : Thread nD τ).loc main_arg1) := by
  dsimp only [V3, W3, hostOps1]
  after_results
  exact W2_arg m ρ c _ (.inl rfl)

theorem V3_v15 (c : Dev nD) : V3 m ρ c main_v15
    = hX2 (m ((c : Thread nD τ).loc main_arg2)) (m ((c : Thread nD τ).loc main_arg6)) (W2 m ρ c (Proc.devRef .tc main_v13_0)) := by
  dsimp only [V3, W3, hostOps1]
  after_results
  rw [W2_arg m ρ c main_arg2 (.inr (.inl rfl)), W2_arg m ρ c main_arg6 (.inr (.inr (.inl rfl)))]
  rfl

theorem V3_v19 (c : Dev nD) : V3 m ρ c main_v19
    = hY2b (m ((c : Thread nD τ).loc main_arg2)) (m ((c : Thread nD τ).loc main_arg7)) (m ((c : Thread nD τ).loc main_arg8))
        (W2 m ρ c (Proc.devRef .tc main_v13_0)) := by
  dsimp only [V3, W3, hostOps1]
  after_results
  rw [W2_arg m ρ c main_arg2 (.inr (.inl rfl)), W2_arg m ρ c main_arg7 (.inr (.inr (.inr (.inl rfl)))),
    W2_arg m ρ c main_arg8 (.inr (.inr (.inr (.inr (.inl rfl)))))]
  rfl

theorem V3_v13_1 (c : Dev nD) : V3 m ρ c main_v13_1 = W2 m ρ c (Proc.devRef .tc main_v13_1) := by
  dsimp only [V3, W3, hostOps1]
  after_results

theorem V3_v20 (c : Dev nD) : V3 m ρ c main_v20 = hW (m ((c : Thread nD τ).loc main_arg12)) := by
  dsimp only [V3, W3, hostOps1]
  after_results
  rw [W2_arg m ρ c main_arg12 (.inr (.inr (.inr (.inr (.inr (.inl rfl))))))]
  rfl

theorem V3_v21 (c : Dev nD) : V3 m ρ c main_v21 = hW (m ((c : Thread nD τ).loc main_arg13)) := by
  dsimp only [V3, W3, hostOps1]
  after_results
  rw [W2_arg m ρ c main_arg13 (.inr (.inr (.inr (.inr (.inr (.inr rfl))))))]
  rfl

/-- The result array at the last boundary: the whole program's term of the arguments. -/
theorem W4_out (c : Dev nD) : W4 m ρ c (Proc.devRef .tc main_v22)
    = kOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) := by
  refine (W4_arr m ρ c 6).trans ((Region1.final6 (V3 m ρ) c).trans ?_)
  show outOf (V3 m ρ c main_arg1) (V3 m ρ c main_v15) (V3 m ρ c main_v19) (V3 m ρ c main_v13_1)
    (V3 m ρ c main_v20 (ix2 0 0)) (V3 m ρ c main_v21 (ix2 0 0)) = _
  rw [V3_arg1, V3_v15, V3_v19, V3_v13_1, V3_v20, V3_v21, W2_sec, W2_main]
  rfl

/-- The run of the kernel's program with the result array at that term, the arguments as launched. -/
theorem run : θ_run defs (onTc (τ := τ) (main (F := Ideal))) ⟨m, fun _ => 0, ρ⟩ (fun r => ∀ c : Dev nD,
      r.2.mem ((c.tc : Thread nD τ).loc main_v22)
        = kOut (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9)) (m ((c : Thread nD τ).loc main_arg10)) (m ((c : Thread nD τ).loc main_arg11))
            (m ((c : Thread nD τ).loc main_arg12)) (m ((c : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (W4_out m ρ c), (h c).2⟩) (Cert.KernelIdeal.Named.run_named m ρ)

end Cert.KernelIdeal.KValue

end
-- ==== Proof.LibConcatCols.lean ====
/-
  Two matrices with the same rows joined side by side, read at an entry.

  Joining an [n, a] array and an [n, b] array along the second axis gives an [n, c] array with c = a + b; its entry
  (p, q') is the first array's entry (p, q) when q' = q < a, and the second array's entry (p, q) when q' = a + q.
  Stated for any element type and any extents.
-/
import Idealize.ShloMosaic.Lib.Pipeline.Value
import Idealize.ShloMosaic.Lib.ValueIdx

noncomputable section

namespace ConcatCols

open Idealize.ShloMosaic Idealize.ShloMosaic.ValueIdx

variable {α : Type} {n a b c : Nat}

/-- A column of the first piece. -/
theorem left_apply (x₁ : (⟨2, ![n, a]⟩ : Shape).Idx → α) (x₂ : (⟨2, ![n, b]⟩ : Shape).Idx → α)
    (h : Shape.Concatenates [(⟨2, ![n, a]⟩ : Shape), (⟨2, ![n, b]⟩ : Shape)] (⟨2, ![n, c]⟩ : Shape) 1)
    (p : Fin n) (q : Fin a) (q' : Fin c) (hq : q'.val = q.val) :
    concatenate (⟨2, ![n, c]⟩ : Shape) 1 [⟨(⟨2, ![n, a]⟩ : Shape), x₁⟩, ⟨(⟨2, ![n, b]⟩ : Shape), x₂⟩] h (ix2 p q') = x₁ (ix2 p q) :=
  concatenate_pair_apply_left (1 : Fin 2) x₁ x₂ h (ix2 p q') rfl (ix2 p q) fun d =>
    match d with
    | ⟨0, _⟩ => rfl
    | ⟨1, _⟩ => hq.symm

/-- A column of the second piece. -/
theorem right_apply (x₁ : (⟨2, ![n, a]⟩ : Shape).Idx → α) (x₂ : (⟨2, ![n, b]⟩ : Shape).Idx → α)
    (h : Shape.Concatenates [(⟨2, ![n, a]⟩ : Shape), (⟨2, ![n, b]⟩ : Shape)] (⟨2, ![n, c]⟩ : Shape) 1)
    (p : Fin n) (q : Fin b) (q' : Fin c) (hq : q'.val = a + q.val) :
    concatenate (⟨2, ![n, c]⟩ : Shape) 1 [⟨(⟨2, ![n, a]⟩ : Shape), x₁⟩, ⟨(⟨2, ![n, b]⟩ : Shape), x₂⟩] h (ix2 p q') = x₂ (ix2 p q) :=
  concatenate_pair_apply_right (1 : Fin 2) x₁ x₂ h (ix2 p q') rfl rfl (ix2 p q)
    (fun d hd =>
      match d, hd with
      | ⟨0, _⟩, _ => rfl
      | ⟨1, _⟩, hd => absurd rfl hd)
    (by show q.val + a = q'.val; omega)

end ConcatCols

end
-- ==== Proof.Bridge.lean ====
/-
  The reference, stage by stage, is the specification.

  The reference computes the same three convolution steps with whole-array operations: A·(X W₁) + X W₂ + b, the
  bias added last.  The specification adds the skip term X W₂ + b in one piece, so the two differ by the
  association of a sum of three terms; addition of extended reals is associative, so nothing is asked of the
  inputs.  The kernel feeds the first pass one 39-column matrix, the secondary and the main features side by side;
  column q of the left part and column q of the right part are read back from it.  The reference's softmax is the
  specification's: the same row maximum from minus infinity, the same exponentials, the sum started from the word
  of zero, which is the extended real 0.
-/
import proofs.«147145_j35545149341868_1_alg».proof.Proof.Gen.ReferenceIdeal.Read
import proofs.«147145_j35545149341868_1_alg».proof.Proof.Spec
import proofs.«147145_j35545149341868_1_alg».proof.Proof.LibConcatCols
import proofs.«147145_j35545149341868_1_alg».proof.Proof.LibRowMax

noncomputable section

open scoped BigOperators

namespace Cert.ReferenceIdeal.Bridge

open Cert.ReferenceIdeal Cert.ReferenceIdeal.Gen Cert.ReferenceIdeal.Read Idealize.ShloMosaic Idealize.ShloMosaic.ValueIdx ArmaSpec

variable (x0 : (⟨S10000x128, .f32⟩ : BufTy).Contents (Elt Ideal)) (x1 : (⟨S10000x10000, .f32⟩ : BufTy).Contents (Elt Ideal))
  (x2 : (⟨S10000x64, .f32⟩ : BufTy).Contents (Elt Ideal)) (x3 x4 : (⟨S128x32, .f32⟩ : BufTy).Contents (Elt Ideal))
  (x5 : (⟨S32, .f32⟩ : BufTy).Contents (Elt Ideal)) (x6 x7 : (⟨S96x7, .f32⟩ : BufTy).Contents (Elt Ideal))
  (x8 : (⟨S7, .f32⟩ : BufTy).Contents (Elt Ideal)) (x9 x10 : (⟨S192x7, .f32⟩ : BufTy).Contents (Elt Ideal))
  (x11 : (⟨S7, .f32⟩ : BufTy).Contents (Elt Ideal)) (x12 x13 : (⟨S_, .f32⟩ : BufTy).Contents (Elt Ideal))

/-- The 39-column shape of the first pass's operands. -/
abbrev S39 : Shape := ⟨2, ![10000, 39]⟩

/-! ## The index maps of the three products by A, at an entry -/

theorem l1 (p : Fin 10000) (q : Fin 32) (k : Fin 10000) : lidx_main_v1 (ix2 p q) k = ix2 p k :=
  funext fun a => Fin.ext (by match a with | ⟨0, _⟩ => rfl | ⟨1, _⟩ => rfl)
theorem r1 (p : Fin 10000) (q : Fin 32) (k : Fin 10000) : ridx_main_v1 (ix2 p q) k = ix2 k q :=
  funext fun a => Fin.ext (by match a with | ⟨0, _⟩ => rfl | ⟨1, _⟩ => rfl)
theorem l10 (p : Fin 10000) (q : Fin 7) (k : Fin 10000) : lidx_main_v10 (ix2 p q) k = ix2 p k :=
  funext fun a => Fin.ext (by match a with | ⟨0, _⟩ => rfl | ⟨1, _⟩ => rfl)
theorem r10 (p : Fin 10000) (q : Fin 7) (k : Fin 10000) : ridx_main_v10 (ix2 p q) k = ix2 k q :=
  funext fun a => Fin.ext (by match a with | ⟨0, _⟩ => rfl | ⟨1, _⟩ => rfl)
theorem l18 (p : Fin 10000) (q : Fin 7) (k : Fin 10000) : lidx_main_v18 (ix2 p q) k = ix2 p k :=
  funext fun a => Fin.ext (by match a with | ⟨0, _⟩ => rfl | ⟨1, _⟩ => rfl)
theorem r18 (p : Fin 10000) (q : Fin 7) (k : Fin 10000) : ridx_main_v18 (ix2 p q) k = ix2 k q :=
  funext fun a => Fin.ext (by match a with | ⟨0, _⟩ => rfl | ⟨1, _⟩ => rfl)

/-! ## The first pass -/

/-- The secondary features: the left 32 columns of the joined operands are the reference's secondary step, and the
    clip at zero is the reference's. -/
theorem sec_eq (M Y' : (⟨S10000x7, .f32⟩ : BufTy).Contents (Elt Ideal))
    (h : Shape.Concatenates [S10000x32, S10000x7] S39 1) :
    secOf x1 (concatenate S39 1 [⟨S10000x32, val_main_v0 (F := Ideal) x0 x3⟩, ⟨S10000x7, M⟩] h)
      (concatenate S39 1 [⟨S10000x32, addf (val_main_v2 (F := Ideal) x0 x4) (val_main_v5 (F := Ideal) x5)⟩, ⟨S10000x7, Y'⟩] h)
    = val_main_v7 (F := Ideal) x0 x1 x3 x4 x5 := by
  funext i
  obtain ⟨p, q, rfl⟩ : ∃ (p : Fin 10000) (q : Fin 32), i = ix2 p q := ⟨i 0, i 1, eq_ix2 i⟩
  rw [val_main_v7_apply, val_main_v6_apply, val_main_v3_apply, val_main_v1_apply, val_main_call0_v0_apply,
    val_main_call0_cst_apply]
  show max ((∑ k : Fin 10000, x1 (ix2 p k) * _) + _) zeroW = max (((∑ k : Fin 10000, _) + _) + _) zeroW
  rw [ConcatCols.left_apply _ _ h p q (colL q) rfl, addf_apply, ← add_assoc]
  refine congrArg (fun s => max (s + _ + _) zeroW) (Finset.sum_congr rfl fun k _ => ?_)
  rw [ConcatCols.left_apply _ _ h k q (colL q) rfl, l1, r1]

/-- The main branch: the right 7 columns of the joined operands are the reference's main step. -/
theorem main_eq (S T : (⟨S10000x32, .f32⟩ : BufTy).Contents (Elt Ideal))
    (h : Shape.Concatenates [S10000x32, S10000x7] S39 1) :
    mainOf x1 (concatenate S39 1 [⟨S10000x32, S⟩, ⟨S10000x7, val_main_v17 (F := Ideal) x0 x2 x9⟩] h)
      (concatenate S39 1 [⟨S10000x32, T⟩, ⟨S10000x7, addf (val_main_v19 (F := Ideal) x0 x2 x10) (val_main_v22 (F := Ideal) x11)⟩] h)
    = val_main_v23 (F := Ideal) x0 x1 x2 x9 x10 x11 := by
  funext i
  obtain ⟨p, q, rfl⟩ : ∃ (p : Fin 10000) (q : Fin 7), i = ix2 p q := ⟨i 0, i 1, eq_ix2 i⟩
  rw [val_main_v23_apply, val_main_v20_apply, val_main_v18_apply]
  show (∑ k : Fin 10000, x1 (ix2 p k) * _) + _ = ((∑ k : Fin 10000, _) + _) + _
  rw [ConcatCols.right_apply _ _ h p q (colR q) rfl, addf_apply, ← add_assoc]
  refine congrArg (fun s => s + _ + _) (Finset.sum_congr rfl fun k _ => ?_)
  rw [ConcatCols.right_apply _ _ h k q (colR q) rfl, l18, r18]

/-! ## The second pass -/

local notation "Z30" => val_main_v30 (F := Ideal) x0 x1 x2 x3 x4 x5 x6 x7 x8 x9 x10 x11 x12 x13

/-- A rank-0 array has one entry. -/
theorem at_ix0 (x : (⟨S_, .f32⟩ : BufTy).Contents (Elt Ideal)) (j : S_.Idx) : x j = x ix0 := congrArg x (eq_ix0 j)

/-- The halved mix is the specification's, of the reference's stages. -/
theorem mix_eq : Z30 = mixOf x1 (val_main_v9 (F := Ideal) x0 x1 x2 x3 x4 x5 x6)
      (addf (val_main_v11 (F := Ideal) x0 x1 x2 x3 x4 x5 x7) (val_main_v14 (F := Ideal) x8))
      (val_main_v23 (F := Ideal) x0 x1 x2 x9 x10 x11) (x12 ix0) (x13 ix0) := by
  funext i
  obtain ⟨p, q, rfl⟩ : ∃ (p : Fin 10000) (q : Fin 7), i = ix2 p q := ⟨i 0, i 1, eq_ix2 i⟩
  rw [val_main_v30_apply, val_main_v29_apply, val_main_cst_apply, val_main_v28_apply, val_main_v25_apply, val_main_v24_apply,
    val_main_v27_apply, val_main_v26_apply, val_main_v15_apply, val_main_v12_apply, val_main_v10_apply,
    at_ix0 x13, at_ix0 x12]
  show halfW * (x13 ix0 * _ + x12 ix0 * (((∑ k : Fin 10000, _) + _) + _)) = halfW * (x13 ix0 * _ + x12 ix0 * ((∑ k : Fin 10000, x1 (ix2 p k) * _) + _))
  rw [addf_apply, ← add_assoc]
  refine congrArg (fun s => halfW * (x13 ix0 * _ + x12 ix0 * (s + _ + _))) (Finset.sum_congr rfl fun k _ => ?_)
  rw [l10, r10]

/-- The reference's row maximum, spread back over the row, at an entry. -/
theorem ref_max (p : Fin 10000) (q : Fin 7) :
    val_main_v35 (F := Ideal) x0 x1 x2 x3 x4 x5 x6 x7 x8 x9 x10 x11 x12 x13 (ix2 p q) = rowMax Z30 p := by
  rw [val_main_v35_apply, val_main_v34_apply, val_main_v33_apply, val_main_v32_apply, val_main_cst_1_apply]
  have hi : idx_main_v34 (idx_main_v35 (ix2 p q)) = ix1 p := funext fun a => Fin.ext (by match a with | ⟨0, _⟩ => rfl)
  rw [hi]
  unfold val_main_v31
  exact congrArg (max negInfW)
    (RowMax.hostReduce_apply _ _ reducesTo_S10000x7_S10000_d1 (by decide) h_S_ p)

/-- The reference's shifted exponentials, at an entry. -/
theorem ref_exp (p : Fin 10000) (q : Fin 7) :
    val_main_v37 (F := Ideal) x0 x1 x2 x3 x4 x5 x6 x7 x8 x9 x10 x11 x12 x13 (ix2 p q) = expShift Z30 p q := by
  rw [val_main_v37_apply, val_main_v36_apply, ref_max]
  rfl

/-- The reference's result is the specification's softmax of the mix. -/
theorem soft_eq : val_main_v41 (F := Ideal) x0 x1 x2 x3 x4 x5 x6 x7 x8 x9 x10 x11 x12 x13 = softOf Z30 := by
  funext i
  obtain ⟨p, q, rfl⟩ : ∃ (p : Fin 10000) (q : Fin 7), i = ix2 p q := ⟨i 0, i 1, eq_ix2 i⟩
  rw [val_main_v41_apply, val_main_v40_apply, val_main_v39_apply, val_main_v38_apply, val_main_cst_2_apply, ref_exp]
  have hi : idx_main_v39 (idx_main_v40 (ix2 p q)) = ix1 p := funext fun a => Fin.ext (by match a with | ⟨0, _⟩ => rfl)
  rw [hi]
  show Ideal.div (expShift Z30 p q) (zeroW + ∑ k : Fin 7, _) = Ideal.div (expShift Z30 p q) (∑ k : Fin 7, expShift Z30 p k)
  rw [show zeroW = 0 from Ideal.ofBits_zero_f32, zero_add]
  refine congrArg (Ideal.div (expShift Z30 p q)) (Finset.sum_congr rfl fun k _ => ?_)
  have hk : idx_main_v38 (ix1 p) k = ix2 p k := funext fun a => Fin.ext (by match a with | ⟨0, _⟩ => rfl | ⟨1, _⟩ => rfl)
  rw [hk, ref_exp]

/-- The second pass of the reference's stages is the reference's result. -/
theorem out_eq : outOf x1 (val_main_v9 (F := Ideal) x0 x1 x2 x3 x4 x5 x6)
      (addf (val_main_v11 (F := Ideal) x0 x1 x2 x3 x4 x5 x7) (val_main_v14 (F := Ideal) x8))
      (val_main_v23 (F := Ideal) x0 x1 x2 x9 x10 x11) (x12 ix0) (x13 ix0)
    = val_main_v41 (F := Ideal) x0 x1 x2 x3 x4 x5 x6 x7 x8 x9 x10 x11 x12 x13 := by
  rw [soft_eq, mix_eq]
  rfl

end Cert.ReferenceIdeal.Bridge

end
-- ==== Proof.Final.lean ====
/-
  The kernel's term and the reference's term are one function of the arguments.

  The host operations the kernel's program runs around its two passes are the reference's own (the same products,
  joins and bias rows), so the kernel's operands are the reference's stages; each pass is then the reference's
  next stages by the bridge lemmas.
-/
import proofs.«147145_j35545149341868_1_alg».proof.Proof.KValue
import proofs.«147145_j35545149341868_1_alg».proof.Proof.Bridge

noncomputable section

namespace Cert.Proof.Final

open Idealize.ShloMosaic Idealize.ShloMosaic.ValueIdx ArmaSpec
open Cert.KernelIdeal Cert.KernelIdeal.KValue

variable (x0 : (⟨S10000x128, .f32⟩ : BufTy).Contents (Elt Ideal)) (x1 : (⟨S10000x10000, .f32⟩ : BufTy).Contents (Elt Ideal))
  (x2 : (⟨S10000x64, .f32⟩ : BufTy).Contents (Elt Ideal)) (x3 x4 : (⟨S128x32, .f32⟩ : BufTy).Contents (Elt Ideal))
  (x5 : (⟨S32, .f32⟩ : BufTy).Contents (Elt Ideal)) (x6 x7 : (⟨S96x7, .f32⟩ : BufTy).Contents (Elt Ideal))
  (x8 : (⟨S7, .f32⟩ : BufTy).Contents (Elt Ideal)) (x9 x10 : (⟨S192x7, .f32⟩ : BufTy).Contents (Elt Ideal))
  (x11 : (⟨S7, .f32⟩ : BufTy).Contents (Elt Ideal)) (x12 x13 : (⟨S_, .f32⟩ : BufTy).Contents (Elt Ideal))

/-- The secondary features the first pass leaves are the reference's. -/
theorem sec_eq : secOf x1 (hX1 x0 x2 x3 x9) (hY2 x0 x2 x4 x5 x10 x11)
    = Cert.ReferenceIdeal.Read.val_main_v7 (F := Ideal) x0 x1 x3 x4 x5 :=
  Cert.ReferenceIdeal.Bridge.sec_eq x0 x1 x3 x4 x5 _ _ Cert.KernelIdeal.Gen.concatenates_S10000x32_S10000x7_S10000x39_d1

/-- The main branch the first pass leaves is the reference's. -/
theorem main_eq : mainOf x1 (hX1 x0 x2 x3 x9) (hY2 x0 x2 x4 x5 x10 x11)
    = Cert.ReferenceIdeal.Read.val_main_v23 (F := Ideal) x0 x1 x2 x9 x10 x11 :=
  Cert.ReferenceIdeal.Bridge.main_eq x0 x1 x2 x9 x10 x11 _ _ Cert.KernelIdeal.Gen.concatenates_S10000x32_S10000x7_S10000x39_d1

/-- The whole program's result is the reference's. -/
theorem kOut_eq : kOut x0 x1 x2 x3 x4 x5 x6 x7 x8 x9 x10 x11 x12 x13
    = Cert.ReferenceIdeal.Read.val_main_v41 (F := Ideal) x0 x1 x2 x3 x4 x5 x6 x7 x8 x9 x10 x11 x12 x13 := by
  unfold kOut
  rw [sec_eq, main_eq, hW_apply, hW_apply]
  exact Cert.ReferenceIdeal.Bridge.out_eq x0 x1 x2 x3 x4 x5 x6 x7 x8 x9 x10 x11 x12 x13

end Cert.Proof.Final

end
-- ==== Proof.lean ====
/-
  The certificate of a two-pass graph convolution with a softmax head.

  The kernel computes softmax(½·(v₂·main + v₁·main_sec)) row by row, where sec = relu(A·(X W₁) + X W₂ + b),
  main_sec = A·(sec‖P)W₃ + (sec‖P)W₄ + b₂ and main = A·(X‖P)W₅ + (X‖P)W₆ + b₃, in two passes over A: the first
  pass multiplies 200-row blocks of A by the secondary and the main pre-transforms side by side (39 columns) and
  adds the two skip terms with their biases; the second does the same for 7 columns, mixes, and takes the softmax.
  The reference computes the same with whole-array operations.  Over the extended reals the two agree entry by
  entry: a change of float format is the identity, a product of matrices is the plain sum at each entry however
  the rows are blocked, columns of joined matrices are columns of the parts, and the only law used is the
  associativity of addition (the bias is added to the skip term first in the kernel and last in the reference),
  which holds on the extended reals without any condition on the inputs.

  The three frames: the kernel's two programs by their generated frame certificates; the reference by its generated
  run.  The idealization rewrote nothing.  The value claim: the kernel's run with its result array named
  (the modules Region0, Region1, KValue over the specification in Spec), the reference's generated run, and the
  equality of the two terms (Bridge, Final).
-/
import proofs.«147145_j35545149341868_1_alg».proof.Defs
import proofs.«147145_j35545149341868_1_alg».proof.Proof.Gen.Kernel
import proofs.«147145_j35545149341868_1_alg».proof.Proof.Gen.Kernel.Skeleton
import proofs.«147145_j35545149341868_1_alg».proof.Proof.Gen.Kernel.Launch
import proofs.«147145_j35545149341868_1_alg».proof.Proof.Gen.Kernel.Points
import proofs.«147145_j35545149341868_1_alg».proof.Proof.Gen.Kernel.Frame
import proofs.«147145_j35545149341868_1_alg».proof.Proof.Gen.KernelIdeal
import proofs.«147145_j35545149341868_1_alg».proof.Proof.Gen.KernelIdeal.Skeleton
import proofs.«147145_j35545149341868_1_alg».proof.Proof.Gen.KernelIdeal.Launch
import proofs.«147145_j35545149341868_1_alg».proof.Proof.Gen.KernelIdeal.Points
import proofs.«147145_j35545149341868_1_alg».proof.Proof.Gen.KernelIdeal.Frame
import proofs.«147145_j35545149341868_1_alg».proof.Proof.Gen.ReferenceIdeal
import proofs.«147145_j35545149341868_1_alg».proof.Proof.Gen.Pre_finite_inputs
import proofs.«147145_j35545149341868_1_alg».proof.Proof.Gen.ReferenceIdeal.Run
import proofs.«147145_j35545149341868_1_alg».proof.Proof.Gen.ReferenceIdeal.Read
import proofs.«147145_j35545149341868_1_alg».proof.Proof.Final
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the same result array: the kernel's at its term of the arguments, the
    reference's at its own, and the two terms are one function. -/
theorem algebraic : Cert.algebraic_KernelIdeal_ReferenceIdeal := by
  intro m ρ m' ρ' _ hagree
  refine ⟨fun c => Cert.KernelIdeal.KValue.kOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13⟩ := hagree c
  rw [Cert.ReferenceIdeal.Read.val_main_v41_eq, e0, e1, e2, e3, e4, e5, e6, e7, e8, e9, e10, e11, e12, e13]
  exact (Cert.Proof.Final.kOut_eq _ _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
